-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S100000x16 : Shape := ⟨2, ![100000, 16]⟩
abbrev S2000x16 : Shape := ⟨2, ![2000, 16]⟩
abbrev S1700000x16 : Shape := ⟨2, ![1700000, 16]⟩
abbrev S1x16 : Shape := ⟨2, ![1, 16]⟩
abbrev S2000 : Shape := ⟨1, ![2000]⟩
abbrev S2000x1 : Shape := ⟨2, ![2000, 1]⟩

abbrev nBuf : Space → Nat
  | .hbm => 89
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x256, .bf16⟩
  | .hbm, ⟨46, _⟩ => ⟨S256x128, .bf16⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S128x16, .bf16⟩
  | .hbm, ⟨68, _⟩ => ⟨S100000x16, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x16, .f32⟩
  | .hbm, ⟨78, _⟩ => ⟨S1700000x1, .f32⟩
  | .hbm, ⟨79, _⟩ => ⟨S1700000x16, .f32⟩
  | .hbm, ⟨80, _⟩ => ⟨S1700000x16, .f32⟩
  | .hbm, ⟨81, _⟩ => ⟨S_, .f32⟩
  | .hbm, ⟨82, _⟩ => ⟨S100000x16, .f32⟩
  | .hbm, ⟨83, _⟩ => ⟨S1700000x1, .i32⟩
  | .hbm, ⟨84, _⟩ => ⟨S100000x16, .f32⟩
  | .hbm, ⟨85, _⟩ => ⟨S1x16, .f32⟩
  | .hbm, ⟨86, _⟩ => ⟨S100000x16, .f32⟩
  | .hbm, ⟨87, _⟩ => ⟨S100000x16, .f32⟩
  | .hbm, ⟨88, _⟩ => ⟨S100000x16, .f32⟩
  | .local _ .vmem, ⟨0, _⟩ => ⟨S2000x256, .bf16⟩
  | .local _ .vmem, ⟨1, _⟩ => ⟨S2000x256, .bf16⟩
  | .local _ .vmem, ⟨2, _⟩ => ⟨S256x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x16, .bf16⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S2000x16_S2000x16_0_0 : ∀ a, (![0, 0] : Fin 2 → Nat) a + S2000x16.size a ≤ S2000x16.size a
  h_S2000x16 : 0 < S2000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  reduces_S2000x16_S2000 : S2000x16.Reduces [1] S2000
  shapeCasts_S2000_S2000x1 : S2000.ShapeCasts S2000x1
  broadcasts_S2000x1_S2000x16 : S2000x1.Broadcasts S2000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x16_S2000x16_1_0_0_1_n_n_wf : DotDims.WF S2000x128 S128x16 S2000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .bf16 = 32 ∨ (Rect.block (s := S100000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x16.size a ≤ S128x16.size a
  hwx1_1 : ∀ i : grid1.Coords, EltTy.bits .bf16 = 32 ∨ (Rect.block (s := S128x16) S128x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x16.size a ≤ S100000x16.size a
  hwx2_1 : ∀ i : grid2.Coords, EltTy.bits .f32 = 32 ∨ (Rect.block (s := S100000x16) S2000x16.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_v31) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S2000x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 138
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x16, .f32⟩
  | 5 => ⟨S16, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S100000x128, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x128, .f32⟩
  | 55 => ⟨S1700000x1, .f32⟩
  | 56 => ⟨S1700000x128, .f32⟩
  | 57 => ⟨S1700000x128, .f32⟩
  | 58 => ⟨S_, .f32⟩
  | 59 => ⟨S100000x128, .f32⟩
  | 60 => ⟨S1700000x1, .i32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000, .i32⟩
  | 69 => ⟨S1700000, .i32⟩
  | 70 => ⟨S1700000, .i32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S100000x16, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x16, .f32⟩
  | 113 => ⟨S1700000x1, .f32⟩
  | 114 => ⟨S1700000x16, .f32⟩
  | 115 => ⟨S1700000x16, .f32⟩
  | 116 => ⟨S_, .f32⟩
  | 117 => ⟨S100000x16, .f32⟩
  | 118 => ⟨S1700000x1, .i32⟩
  | 119 => ⟨S100000x16, .f32⟩
  | 120 => ⟨S1x16, .f32⟩
  | 121 => ⟨S100000x16, .f32⟩
  | 122 => ⟨S100000x16, .f32⟩
  | 123 => ⟨S_, .f32⟩
  | 124 => ⟨S100000, .f32⟩
  | 125 => ⟨S_, .f32⟩
  | 126 => ⟨S100000, .f32⟩
  | 127 => ⟨S100000, .f32⟩
  | _ => ⟨S100000x256, .f32⟩

abbrev hbmTy0_1 (i : Nat) : BufTy := match i % 128 with
  | 0 => ⟨S100000x1, .f32⟩
  | 1 => ⟨S100000x16, .f32⟩
  | 2 => ⟨S100000x16, .f32⟩
  | 3 => ⟨S100000x16, .f32⟩
  | 4 => ⟨S_, .f32⟩
  | 5 => ⟨S100000, .f32⟩
  | 6 => ⟨S100000x1, .f32⟩
  | 7 => ⟨S100000x1, .f32⟩
  | 8 => ⟨S100000x16, .f32⟩
  | 9 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_c_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call3_cst : Ref sig .tc := ⟨.hbm, 123, rfl⟩
abbrev main_call3_v0 : Ref sig .tc := ⟨.hbm, 124, rfl⟩
abbrev main_call3_cst_0 : Ref sig .tc := ⟨.hbm, 125, rfl⟩
abbrev main_call3_v1 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_v6 : Ref sig .tc := ⟨.hbm, 131, rfl⟩
abbrev main_call3_cst_1 : Ref sig .tc := ⟨.hbm, 132, rfl⟩
abbrev main_call3_v7 : Ref sig .tc := ⟨.hbm, 133, rfl⟩
abbrev main_call3_v8 : Ref sig .tc := ⟨.hbm, 134, rfl⟩
abbrev main_call3_v9 : Ref sig .tc := ⟨.hbm, 135, rfl⟩
abbrev main_call3_v10 : Ref sig .tc := ⟨.hbm, 136, rfl⟩
abbrev main_v93 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.HostChains.lean ====
/-
  The host stretches around the three dense stages, each named as ONE function of what it reads.

  With e the [2, 1600000] edge list: `sources e` and `targets e` are its two rows with the 100000 self-loops appended;
  `edgeNorm e` is the symmetric normalisation, one number per edge: d[s] · d[t] where d is 1/√deg on the nodes of
  positive in-degree (deg counts the edges arriving at a node, self-loop included) and 0 elsewhere. `aggregate128 h nrm
  s t b` (and `aggregate16` for 16 columns) gathers row s of h for every edge — a negative index wraps once by the node
  count —, scales it by the edge's normalisation, adds it into row t of a zero array, and adds the bias b to every row.

  The kernel's program and the reference apply exactly these operations; naming them lets the two programs be compared
  through the values going in, without ever opening a gather or a scatter.
-/
import proofs.«125417_j54477365182993_1_alg».proof.Proof.Gen.KernelIdeal

noncomputable section

namespace Cert.KernelIdeal.HostChains

open Cert.KernelIdeal Cert.KernelIdeal.Facts₀ Cert.KernelIdeal.Facts Idealize.ShloMosaic

variable {F : FTy → Type} [FloatOps F]

/-- The source node of every edge, the self-loops last. -/
def sources (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The target node of every edge, the self-loops last. -/
def targets (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A node index per edge as a gather reads it: a negative index wraps once by the node count. -/
def wrapped (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- 1/√deg on the nodes of positive in-degree, 0 elsewhere. -/
def invSqrtDegree (t : (⟨S1700000, .i32⟩ : BufTy).Contents (Elt F)) : (⟨S100000, .f32⟩ : BufTy).Contents (Elt F) :=
  let deg : (⟨S100000, .f32⟩ : BufTy).Contents (Elt F) :=
    Host.scatterAdd scatter_S100000_S1700000x1_S1700000_n_0_0_1 (broadcastInDim S100000 ![] bcast_S_S100000 (constant S_ .f32 0x00000000#32))
      (broadcastInDim S1700000x1 ![0] bcast_S1700000_S1700000x1_0 t) (broadcastInDim S1700000 ![] bcast_S_S1700000 (constant S_ .f32 0x3F800000#32))
  select (cmpf (F := F) .ogt deg (broadcastInDim S100000 ![] bcast_S_S100000 (constant S_ .f32 0x00000000#32))) (Host.rsqrt deg)
    (broadcastInDim S100000 ![] bcast_S_S100000 (constant S_ .f32 0x00000000#32))

/-- The normalisation of every edge: d[source] · d[target]. -/
def edgeNormOf (s t : (⟨S1700000, .i32⟩ : BufTy).Contents (Elt F)) : (⟨S1700000, .f32⟩ : BufTy).Contents (Elt F) :=
  mulf (Host.gather gather_S100000_S1700000x1_S1700000_n_0_n_n_0_1_1 (invSqrtDegree t) (wrapped s))
    (Host.gather gather_S100000_S1700000x1_S1700000_n_0_n_n_0_1_1 (invSqrtDegree t) (wrapped t))

/-- The normalisation as a function of the edge list. -/
def edgeNorm (e : (⟨S2x1600000, .i32⟩ : BufTy).Contents (Elt F)) : (⟨S1700000, .f32⟩ : BufTy).Contents (Elt F) :=
  edgeNormOf (sources e) (targets e)

/-- Gather, scale, scatter-add, add the bias: 128 columns. -/
def aggregate128 (h : (⟨S100000x128, .f32⟩ : BufTy).Contents (Elt F)) (nrm : (⟨S1700000, .f32⟩ : BufTy).Contents (Elt F))
    (s t : (⟨S1700000, .i32⟩ : BufTy).Contents (Elt F)) (b : (⟨S128, .f32⟩ : BufTy).Contents (Elt F)) : (⟨S100000x128, .f32⟩ : BufTy).Contents (Elt F) :=
  addf
    (Host.scatterAdd scatter_S100000x128_S1700000x1_S1700000x128_1_0_0_1 (broadcastInDim S100000x128 ![] bcast_S_S100000x128 (constant S_ .f32 0x00000000#32))
      (broadcastInDim S1700000x1 ![0] bcast_S1700000_S1700000x1_0 t)
      (mulf (Host.gather gather_S100000x128_S1700000x1_S1700000x128_1_0_n_n_0_1_1128 h (wrapped s))
        (broadcastInDim S1700000x128 ![0, 1] bcast_S1700000x1_S1700000x128_0_1 (broadcastInDim S1700000x1 ![0] bcast_S1700000_S1700000x1_0 nrm))))
    (broadcastInDim S100000x128 ![0, 1] bcast_S1x128_S100000x128_0_1 (broadcastInDim S1x128 ![1] bcast_S128_S1x128_1 b))

/-- Gather, scale, scatter-add, add the bias: 16 columns. -/
def aggregate16 (h : (⟨S100000x16, .f32⟩ : BufTy).Contents (Elt F)) (nrm : (⟨S1700000, .f32⟩ : BufTy).Contents (Elt F))
    (s t : (⟨S1700000, .i32⟩ : BufTy).Contents (Elt F)) (b : (⟨S16, .f32⟩ : BufTy).Contents (Elt F)) : (⟨S100000x16, .f32⟩ : BufTy).Contents (Elt F) :=
  addf
    (Host.scatterAdd scatter_S100000x16_S1700000x1_S1700000x16_1_0_0_1 (broadcastInDim S100000x16 ![] bcast_S_S100000x16 (constant S_ .f32 0x00000000#32))
      (broadcastInDim S1700000x1 ![0] bcast_S1700000_S1700000x1_0 t)
      (mulf (Host.gather gather_S100000x16_S1700000x1_S1700000x16_1_0_n_n_0_1_116 h (wrapped s))
        (broadcastInDim S1700000x16 ![0, 1] bcast_S1700000x1_S1700000x16_0_1 (broadcastInDim S1700000x1 ![0] bcast_S1700000_S1700000x1_0 nrm))))
    (broadcastInDim S100000x16 ![0, 1] bcast_S1x16_S100000x16_0_1 (broadcastInDim S1x16 ![1] bcast_S16_S1x16_1 b))

end Cert.KernelIdeal.HostChains

end
-- ==== Proof.KernelStretch.lean ====
/-
  The host stretches of the kernel's program, read one at a time, at any float family.

  Each stretch is read from an ARBITRARY valuation of the buffers: what it leaves in the buffers a later stretch or
  region reads, as the named chains of what it found; and that it leaves alone the buffers it does not write. The
  boundaries' contents of the generated frame (`W0 … W8`) are then walked from the launch to the return with these
  equations: the edge sources, targets and normalisation reach every stretch that reads them unchanged, and each region's
  output enters the next stretch as that region's final array.

  Nothing here is specific to extended reals: every statement holds at an abstract float family, where the operations
  are uninterpreted.
-/
import proofs.«125417_j54477365182993_1_alg».proof.Proof.Gen.KernelIdeal.Frame
import proofs.«125417_j54477365182993_1_alg».proof.Proof.HostChains
import Idealize.ShloMosaic.Lib.StableHlo.Run

set_option maxRecDepth 16384

noncomputable section

namespace Cert.KernelIdeal.Stretch

open Cert.KernelIdeal Cert.KernelIdeal.Gen Cert.KernelIdeal.HostChains
open Idealize.ShloMosaic Idealize.ShloMosaic.TcCoe Idealize.SL.Sem Idealize.ShloMosaic.StableHlo
open Idealize.ShloMosaic.Pipeline (Dat)

variable {F : FTy → Type} [FloatOps F]

/-! ## Each stretch from an arbitrary valuation -/

section Generic

variable (Wv : Valuation τ sig (Elt F))

/-- The all-zero vector over the nodes, and the in-degree (self-loops included) as a float. -/
def zeros : (⟨S100000, .f32⟩ : BufTy).Contents (Elt F) := broadcastInDim S100000 ![] bcast_S_S100000 (constant S_ .f32 0x00000000#32)
def degree (t : (⟨S1700000, .i32⟩ : BufTy).Contents (Elt F)) : (⟨S100000, .f32⟩ : BufTy).Contents (Elt F) :=
  Host.scatterAdd scatter_S100000_S1700000x1_S1700000_n_0_0_1 zeros (broadcastInDim S1700000x1 ![0] bcast_S1700000_S1700000x1_0 t)
    (broadcastInDim S1700000 ![] bcast_S_S1700000 (constant S_ .f32 0x3F800000#32))

/-! ### The first stretch: sources, targets, and the pieces of 1/√deg -/

theorem first_sources : StableHlo.after hostOps0 Wv (Proc.devRef .tc main_v5) = sources (Wv (Proc.devRef .tc main_arg1)) := by
  after_results
  try rfl
theorem first_targets : StableHlo.after hostOps0 Wv (Proc.devRef .tc main_v6) = targets (Wv (Proc.devRef .tc main_arg1)) := by
  after_results
  try rfl
theorem first_positive : StableHlo.after hostOps0 Wv (Proc.devRef .tc main_v12) = cmpf (F := F) .ogt (degree (targets (Wv (Proc.devRef .tc main_arg1)))) zeros := by
  after_results
  try rfl
theorem first_rsqrt : StableHlo.after hostOps0 Wv (Proc.devRef .tc main_v13) = Host.rsqrt (degree (targets (Wv (Proc.devRef .tc main_arg1)))) := by
  after_results
  try rfl
theorem first_zeros : StableHlo.after hostOps0 Wv (Proc.devRef .tc main_v14) = zeros := by
  after_results
  try rfl
theorem first_keeps_arg0 : StableHlo.after hostOps0 Wv (Proc.devRef .tc main_arg0) = Wv (Proc.devRef .tc main_arg0) := by
  after_results
  try rfl
theorem first_keeps_arg1 : StableHlo.after hostOps0 Wv (Proc.devRef .tc main_arg1) = Wv (Proc.devRef .tc main_arg1) := by
  after_results
  try rfl
theorem first_keeps_arg2 : StableHlo.after hostOps0 Wv (Proc.devRef .tc main_arg2) = Wv (Proc.devRef .tc main_arg2) := by
  after_results
  try rfl
theorem first_keeps_arg3 : StableHlo.after hostOps0 Wv (Proc.devRef .tc main_arg3) = Wv (Proc.devRef .tc main_arg3) := by
  after_results
  try rfl
theorem first_keeps_arg4 : StableHlo.after hostOps0 Wv (Proc.devRef .tc main_arg4) = Wv (Proc.devRef .tc main_arg4) := by
  after_results
  try rfl
theorem first_keeps_arg5 : StableHlo.after hostOps0 Wv (Proc.devRef .tc main_arg5) = Wv (Proc.devRef .tc main_arg5) := by
  after_results
  try rfl

/-! ### The second stretch: the select of `where` -/

theorem where_select : StableHlo.after hostOps0_1 Wv (Proc.devRef .tc main_v15) = select (Wv (Proc.devRef .tc main_v12)) (Wv (Proc.devRef .tc main_v13)) (Wv (Proc.devRef .tc main_v14)) := by
  after_results
  (try simp only [TRef.ofBuf, TRef.toBuf, cast_eq])
  try rfl
theorem where_keeps_v5 : StableHlo.after hostOps0_1 Wv (Proc.devRef .tc main_v5) = Wv (Proc.devRef .tc main_v5) := by
  after_results
  try rfl
theorem where_keeps_v6 : StableHlo.after hostOps0_1 Wv (Proc.devRef .tc main_v6) = Wv (Proc.devRef .tc main_v6) := by
  after_results
  try rfl
theorem where_keeps_arg0 : StableHlo.after hostOps0_1 Wv (Proc.devRef .tc main_arg0) = Wv (Proc.devRef .tc main_arg0) := by
  after_results
  try rfl
theorem where_keeps_arg2 : StableHlo.after hostOps0_1 Wv (Proc.devRef .tc main_arg2) = Wv (Proc.devRef .tc main_arg2) := by
  after_results
  try rfl
theorem where_keeps_arg3 : StableHlo.after hostOps0_1 Wv (Proc.devRef .tc main_arg3) = Wv (Proc.devRef .tc main_arg3) := by
  after_results
  try rfl
theorem where_keeps_arg4 : StableHlo.after hostOps0_1 Wv (Proc.devRef .tc main_arg4) = Wv (Proc.devRef .tc main_arg4) := by
  after_results
  try rfl
theorem where_keeps_arg5 : StableHlo.after hostOps0_1 Wv (Proc.devRef .tc main_arg5) = Wv (Proc.devRef .tc main_arg5) := by
  after_results
  try rfl

/-! ### The third stretch: the edge normalisation, and the operands of layer 1 in the narrow format -/

set_option maxHeartbeats 8000000 in
theorem third_norm : StableHlo.after hostOps0_2 Wv (Proc.devRef .tc main_v30)
    = mulf (Host.gather gather_S100000_S1700000x1_S1700000_n_0_n_n_0_1_1 (Wv (Proc.devRef .tc main_v15)) (wrapped (Wv (Proc.devRef .tc main_v5))))
        (Host.gather gather_S100000_S1700000x1_S1700000_n_0_n_n_0_1_1 (Wv (Proc.devRef .tc main_v15)) (wrapped (Wv (Proc.devRef .tc main_v6)))) := by
  after_results
  try rfl
theorem third_feat : StableHlo.after hostOps0_2 Wv (Proc.devRef .tc main_v31) = truncf .bf16 (Wv (Proc.devRef .tc main_arg0)) bitsLt_bf16_f32 := by
  after_results
  try rfl
theorem third_w1 : StableHlo.after hostOps0_2 Wv (Proc.devRef .tc main_v32) = truncf .bf16 (Wv (Proc.devRef .tc main_arg2)) bitsLt_bf16_f32 := by
  after_results
  try rfl
theorem third_keeps_v5 : StableHlo.after hostOps0_2 Wv (Proc.devRef .tc main_v5) = Wv (Proc.devRef .tc main_v5) := by
  after_results
  try rfl
theorem third_keeps_v6 : StableHlo.after hostOps0_2 Wv (Proc.devRef .tc main_v6) = Wv (Proc.devRef .tc main_v6) := by
  after_results
  try rfl
theorem third_keeps_arg3 : StableHlo.after hostOps0_2 Wv (Proc.devRef .tc main_arg3) = Wv (Proc.devRef .tc main_arg3) := by
  after_results
  try rfl
theorem third_keeps_arg4 : StableHlo.after hostOps0_2 Wv (Proc.devRef .tc main_arg4) = Wv (Proc.devRef .tc main_arg4) := by
  after_results
  try rfl
theorem third_keeps_arg5 : StableHlo.after hostOps0_2 Wv (Proc.devRef .tc main_arg5) = Wv (Proc.devRef .tc main_arg5) := by
  after_results
  try rfl

/-! ### Between regions 0 and 1: the aggregation of layer 1 -/

set_option maxHeartbeats 8000000 in
theorem fourth_hidden : StableHlo.after hostOps1 Wv (Proc.devRef .tc main_v49)
    = aggregate128 (Wv (Proc.devRef .tc main_v33)) (Wv (Proc.devRef .tc main_v30)) (Wv (Proc.devRef .tc main_v5)) (Wv (Proc.devRef .tc main_v6)) (Wv (Proc.devRef .tc main_arg3)) := by
  after_results
  try rfl
theorem fourth_w2 : StableHlo.after hostOps1 Wv (Proc.devRef .tc main_v50) = truncf .bf16 (Wv (Proc.devRef .tc main_arg4)) bitsLt_bf16_f32 := by
  after_results
  try rfl
theorem fourth_keeps_v5 : StableHlo.after hostOps1 Wv (Proc.devRef .tc main_v5) = Wv (Proc.devRef .tc main_v5) := by
  after_results
  try rfl
theorem fourth_keeps_v6 : StableHlo.after hostOps1 Wv (Proc.devRef .tc main_v6) = Wv (Proc.devRef .tc main_v6) := by
  after_results
  try rfl
theorem fourth_keeps_v30 : StableHlo.after hostOps1 Wv (Proc.devRef .tc main_v30) = Wv (Proc.devRef .tc main_v30) := by
  after_results
  try rfl
theorem fourth_keeps_arg5 : StableHlo.after hostOps1 Wv (Proc.devRef .tc main_arg5) = Wv (Proc.devRef .tc main_arg5) := by
  after_results
  try rfl

/-! ### Between regions 1 and 2: the aggregation of layer 2 -/

set_option maxHeartbeats 8000000 in
theorem fifth_logits : StableHlo.after hostOps2 Wv (Proc.devRef .tc main_v67)
    = aggregate16 (Wv (Proc.devRef .tc main_v51)) (Wv (Proc.devRef .tc main_v30)) (Wv (Proc.devRef .tc main_v5)) (Wv (Proc.devRef .tc main_v6)) (Wv (Proc.devRef .tc main_arg5)) := by
  after_results
  try rfl

end Generic

/-! ## The walk: the boundaries' contents from the launch to the return -/

section Walk

variable (m : (ℓ : Loc nD τ sig) → Buf (Elt F) ℓ) (ρ : Dev nD → PrngReg) (c : Dev nD)

/-- The edge list as launched. -/
abbrev edgesAt : (⟨S2x1600000, .i32⟩ : BufTy).Contents (Elt F) := W0 m ρ c (Proc.devRef .tc main_arg1)

/-! ### After the first stretch -/

theorem b1_sources : W1 m ρ c (Proc.devRef .tc main_v5) = sources (edgesAt m ρ c) := first_sources (W0 m ρ c)
theorem b1_targets : W1 m ρ c (Proc.devRef .tc main_v6) = targets (edgesAt m ρ c) := first_targets (W0 m ρ c)
theorem b1_positive : W1 m ρ c (Proc.devRef .tc main_v12) = cmpf (F := F) .ogt (degree (targets (edgesAt m ρ c))) zeros := first_positive (W0 m ρ c)
theorem b1_rsqrt : W1 m ρ c (Proc.devRef .tc main_v13) = Host.rsqrt (degree (targets (edgesAt m ρ c))) := first_rsqrt (W0 m ρ c)
theorem b1_zeros : W1 m ρ c (Proc.devRef .tc main_v14) = zeros := first_zeros (W0 m ρ c)
theorem b1_arg0 : W1 m ρ c (Proc.devRef .tc main_arg0) = W0 m ρ c (Proc.devRef .tc main_arg0) := first_keeps_arg0 (W0 m ρ c)
theorem b1_arg2 : W1 m ρ c (Proc.devRef .tc main_arg2) = W0 m ρ c (Proc.devRef .tc main_arg2) := first_keeps_arg2 (W0 m ρ c)
theorem b1_arg3 : W1 m ρ c (Proc.devRef .tc main_arg3) = W0 m ρ c (Proc.devRef .tc main_arg3) := first_keeps_arg3 (W0 m ρ c)
theorem b1_arg4 : W1 m ρ c (Proc.devRef .tc main_arg4) = W0 m ρ c (Proc.devRef .tc main_arg4) := first_keeps_arg4 (W0 m ρ c)
theorem b1_arg5 : W1 m ρ c (Proc.devRef .tc main_arg5) = W0 m ρ c (Proc.devRef .tc main_arg5) := first_keeps_arg5 (W0 m ρ c)

/-! ### After the select -/

theorem b2_where : W2 m ρ c (Proc.devRef .tc main_v15) = invSqrtDegree (targets (edgesAt m ρ c)) := by
  refine (where_select (W1 m ρ c)).trans ?_
  rw [b1_positive, b1_rsqrt, b1_zeros]
  rfl
theorem b2_sources : W2 m ρ c (Proc.devRef .tc main_v5) = sources (edgesAt m ρ c) := (where_keeps_v5 (W1 m ρ c)).trans (b1_sources m ρ c)
theorem b2_targets : W2 m ρ c (Proc.devRef .tc main_v6) = targets (edgesAt m ρ c) := (where_keeps_v6 (W1 m ρ c)).trans (b1_targets m ρ c)
theorem b2_arg0 : W2 m ρ c (Proc.devRef .tc main_arg0) = W0 m ρ c (Proc.devRef .tc main_arg0) := (where_keeps_arg0 (W1 m ρ c)).trans (b1_arg0 m ρ c)
theorem b2_arg2 : W2 m ρ c (Proc.devRef .tc main_arg2) = W0 m ρ c (Proc.devRef .tc main_arg2) := (where_keeps_arg2 (W1 m ρ c)).trans (b1_arg2 m ρ c)
theorem b2_arg3 : W2 m ρ c (Proc.devRef .tc main_arg3) = W0 m ρ c (Proc.devRef .tc main_arg3) := (where_keeps_arg3 (W1 m ρ c)).trans (b1_arg3 m ρ c)
theorem b2_arg4 : W2 m ρ c (Proc.devRef .tc main_arg4) = W0 m ρ c (Proc.devRef .tc main_arg4) := (where_keeps_arg4 (W1 m ρ c)).trans (b1_arg4 m ρ c)
theorem b2_arg5 : W2 m ρ c (Proc.devRef .tc main_arg5) = W0 m ρ c (Proc.devRef .tc main_arg5) := (where_keeps_arg5 (W1 m ρ c)).trans (b1_arg5 m ρ c)

/-! ### Region 0's entry -/

theorem b3_norm : W3 m ρ c (Proc.devRef .tc main_v30) = edgeNorm (edgesAt m ρ c) := by
  refine (third_norm (W2 m ρ c)).trans ?_
  rw [b2_where, b2_sources, b2_targets]
  rfl
theorem b3_feat : W3 m ρ c (Proc.devRef .tc main_v31) = truncf .bf16 (W0 m ρ c (Proc.devRef .tc main_arg0)) bitsLt_bf16_f32 := by
  refine (third_feat (W2 m ρ c)).trans ?_
  rw [b2_arg0]
theorem b3_w1 : W3 m ρ c (Proc.devRef .tc main_v32) = truncf .bf16 (W0 m ρ c (Proc.devRef .tc main_arg2)) bitsLt_bf16_f32 := by
  refine (third_w1 (W2 m ρ c)).trans ?_
  rw [b2_arg2]
theorem b3_sources : W3 m ρ c (Proc.devRef .tc main_v5) = sources (edgesAt m ρ c) := (third_keeps_v5 (W2 m ρ c)).trans (b2_sources m ρ c)
theorem b3_targets : W3 m ρ c (Proc.devRef .tc main_v6) = targets (edgesAt m ρ c) := (third_keeps_v6 (W2 m ρ c)).trans (b2_targets m ρ c)
theorem b3_arg3 : W3 m ρ c (Proc.devRef .tc main_arg3) = W0 m ρ c (Proc.devRef .tc main_arg3) := (third_keeps_arg3 (W2 m ρ c)).trans (b2_arg3 m ρ c)
theorem b3_arg4 : W3 m ρ c (Proc.devRef .tc main_arg4) = W0 m ρ c (Proc.devRef .tc main_arg4) := (third_keeps_arg4 (W2 m ρ c)).trans (b2_arg4 m ρ c)
theorem b3_arg5 : W3 m ρ c (Proc.devRef .tc main_arg5) = W0 m ρ c (Proc.devRef .tc main_arg5) := (third_keeps_arg5 (W2 m ρ c)).trans (b2_arg5 m ρ c)

/-! ### Region 0's exit: its output at what the pipeline leaves, every other buffer as entered -/

theorem b4_out : W4 m ρ c (Proc.devRef .tc main_v33) = (dat0 (V3 m ρ) c).arrAt 2 cfg0.N := W4_arr m ρ c 2
theorem b4_sources : W4 m ρ c (Proc.devRef .tc main_v5) = sources (edgesAt m ρ c) := (W4_of_ne m ρ c main_v5 (by decide)).trans (b3_sources m ρ c)
theorem b4_targets : W4 m ρ c (Proc.devRef .tc main_v6) = targets (edgesAt m ρ c) := (W4_of_ne m ρ c main_v6 (by decide)).trans (b3_targets m ρ c)
theorem b4_norm : W4 m ρ c (Proc.devRef .tc main_v30) = edgeNorm (edgesAt m ρ c) := (W4_of_ne m ρ c main_v30 (by decide)).trans (b3_norm m ρ c)
theorem b4_arg3 : W4 m ρ c (Proc.devRef .tc main_arg3) = W0 m ρ c (Proc.devRef .tc main_arg3) := (W4_of_ne m ρ c main_arg3 (by decide)).trans (b3_arg3 m ρ c)
theorem b4_arg4 : W4 m ρ c (Proc.devRef .tc main_arg4) = W0 m ρ c (Proc.devRef .tc main_arg4) := (W4_of_ne m ρ c main_arg4 (by decide)).trans (b3_arg4 m ρ c)
theorem b4_arg5 : W4 m ρ c (Proc.devRef .tc main_arg5) = W0 m ρ c (Proc.devRef .tc main_arg5) := (W4_of_ne m ρ c main_arg5 (by decide)).trans (b3_arg5 m ρ c)

/-! ### Region 1's entry -/

theorem b5_hidden : W5 m ρ c (Proc.devRef .tc main_v49)
    = aggregate128 ((dat0 (V3 m ρ) c).arrAt 2 cfg0.N) (edgeNorm (edgesAt m ρ c)) (sources (edgesAt m ρ c)) (targets (edgesAt m ρ c)) (W0 m ρ c (Proc.devRef .tc main_arg3)) := by
  refine (fourth_hidden (W4 m ρ c)).trans ?_
  rw [b4_out, b4_norm, b4_sources, b4_targets, b4_arg3]
theorem b5_w2 : W5 m ρ c (Proc.devRef .tc main_v50) = truncf .bf16 (W0 m ρ c (Proc.devRef .tc main_arg4)) bitsLt_bf16_f32 := by
  refine (fourth_w2 (W4 m ρ c)).trans ?_
  rw [b4_arg4]
theorem b5_sources : W5 m ρ c (Proc.devRef .tc main_v5) = sources (edgesAt m ρ c) := (fourth_keeps_v5 (W4 m ρ c)).trans (b4_sources m ρ c)
theorem b5_targets : W5 m ρ c (Proc.devRef .tc main_v6) = targets (edgesAt m ρ c) := (fourth_keeps_v6 (W4 m ρ c)).trans (b4_targets m ρ c)
theorem b5_norm : W5 m ρ c (Proc.devRef .tc main_v30) = edgeNorm (edgesAt m ρ c) := (fourth_keeps_v30 (W4 m ρ c)).trans (b4_norm m ρ c)
theorem b5_arg5 : W5 m ρ c (Proc.devRef .tc main_arg5) = W0 m ρ c (Proc.devRef .tc main_arg5) := (fourth_keeps_arg5 (W4 m ρ c)).trans (b4_arg5 m ρ c)

/-! ### Region 1's exit -/

theorem b6_out : W6 m ρ c (Proc.devRef .tc main_v51) = (dat1 (V5 m ρ) c).arrAt 2 cfg1.N := W6_arr m ρ c 2
theorem b6_sources : W6 m ρ c (Proc.devRef .tc main_v5) = sources (edgesAt m ρ c) := (W6_of_ne m ρ c main_v5 (by decide)).trans (b5_sources m ρ c)
theorem b6_targets : W6 m ρ c (Proc.devRef .tc main_v6) = targets (edgesAt m ρ c) := (W6_of_ne m ρ c main_v6 (by decide)).trans (b5_targets m ρ c)
theorem b6_norm : W6 m ρ c (Proc.devRef .tc main_v30) = edgeNorm (edgesAt m ρ c) := (W6_of_ne m ρ c main_v30 (by decide)).trans (b5_norm m ρ c)
theorem b6_arg5 : W6 m ρ c (Proc.devRef .tc main_arg5) = W0 m ρ c (Proc.devRef .tc main_arg5) := (W6_of_ne m ρ c main_arg5 (by decide)).trans (b5_arg5 m ρ c)

/-! ### Region 2's entry and exit -/

theorem b7_logits : W7 m ρ c (Proc.devRef .tc main_v67)
    = aggregate16 ((dat1 (V5 m ρ) c).arrAt 2 cfg1.N) (edgeNorm (edgesAt m ρ c)) (sources (edgesAt m ρ c)) (targets (edgesAt m ρ c)) (W0 m ρ c (Proc.devRef .tc main_arg5)) := by
  refine (fifth_logits (W6 m ρ c)).trans ?_
  rw [b6_out, b6_norm, b6_sources, b6_targets, b6_arg5]

theorem b8_out : W8 m ρ c (Proc.devRef .tc main_v68) = (dat2 (V7 m ρ) c).arrAt 1 cfg2.N := W8_arr m ρ c 1

end Walk

end Cert.KernelIdeal.Stretch

end
-- ==== Proof.Spec.lean ====
/-
  What the three dense stages of a two-layer graph convolution compute, as functions of whole arrays over the
  extended reals, index by index.

  * `rowsTimes x w` — the matrix product: entry (r, j) is the sum over k of x[r, k] · w[k, j].
  * `reluRowsTimes a w` — the same product after clamping every entry of the left factor below at 0.
  * `logSoftmaxRows y` — a row-wise log-softmax in its shifted form: with M the maximum of row r (taken from −∞),
    entry (r, j) is (y[r, j] − M) − log (Σ_k exp (y[r, k] − M)).

  Nothing here mentions a program: both the tiled kernels and the host reference are shown to compute these.
-/
import Idealize.ShloMosaic.PureOps.Ideal
import Idealize.ShloMosaic.Lib.ValueIdx
import Mathlib.Data.Finset.Fold

noncomputable section

open scoped BigOperators

namespace Cert.Gcn

open Idealize.ShloMosaic

/-- The shape of an [a, b] matrix. -/
abbrev Mat (a b : Nat) : Shape := ⟨2, ![a, b]⟩

/-- Entry (r, k) of an [a, b] matrix, where r is the row of the index `i` into an [a, d] matrix. -/
abbrev rowAt {a b d : Nat} (i : (Mat a d).Idx) (k : Fin b) : (Mat a b).Idx := fun ax => match ax with
  | ⟨0, _⟩ => ⟨(i 0).val, (i 0).isLt⟩
  | ⟨1, _⟩ => ⟨k.val, k.isLt⟩

/-- Entry (k, j) of a [b, d] matrix, where j is the column of the index `i` into an [a, d] matrix. -/
abbrev colAt {a b d : Nat} (i : (Mat a d).Idx) (k : Fin b) : (Mat b d).Idx := fun ax => match ax with
  | ⟨0, _⟩ => ⟨k.val, k.isLt⟩
  | ⟨1, _⟩ => ⟨(i 1).val, (i 1).isLt⟩

/-- The matrix product x · w: entry (r, j) is Σ_k x[r, k] · w[k, j]. -/
def rowsTimes {a b d : Nat} (x : (Mat a b).Idx → EReal) (w : (Mat b d).Idx → EReal) : (Mat a d).Idx → EReal :=
  fun i => ∑ k : Fin b, x (rowAt i k) * w (colAt i k)

/-- The product after the left factor is clamped below at 0: entry (r, j) is Σ_k max(a[r, k], 0) · w[k, j]. -/
def reluRowsTimes {a b d : Nat} (x : (Mat a b).Idx → EReal) (w : (Mat b d).Idx → EReal) : (Mat a d).Idx → EReal :=
  rowsTimes (fun i => max (x i) 0) w

/-- The maximum of the row of `i`, folded from −∞ (the word 0xFF800000 read as an extended real). -/
def rowMax {a d : Nat} (y : (Mat a d).Idx → EReal) (i : (Mat a d).Idx) : EReal :=
  (Finset.univ : Finset (Fin d)).fold max (Ideal.ofBits .f32 0xFF800000#32) (fun k => y (rowAt i k))

/-- Row-wise log-softmax, shifted by the row maximum: (y[r, j] − M_r) − log Σ_k exp (y[r, k] − M_r). -/
def logSoftmaxRows {a d : Nat} (y : (Mat a d).Idx → EReal) : (Mat a d).Idx → EReal :=
  fun i => (y i - rowMax y i) - Ideal.log (∑ k : Fin d, Ideal.exp (y (rowAt i k) - rowMax y i))

/-- Folding a maximum from `b` never falls below `b`, so taking the maximum with `b` once more changes nothing. -/
theorem max_fold_max_self {ι : Type} (s : Finset ι) (b : EReal) (f : ι → EReal) :
    max b (s.fold max b f) = s.fold max b f :=
  max_eq_right ((Finset.le_fold_max b).mpr (Or.inl le_rfl))

end Cert.Gcn

end
-- ==== Proof.Layer1.lean ====
/-
  Layer 1's linear transform, tile by tile, is ONE matrix product.

  The first region runs over 50 grid points; point t loads rows [2000·t, 2000·t + 2000) of the features
  (a [2000, 256] block), the whole [256, 128] weight matrix, and stores their product into rows
  [2000·t, 2000·t + 2000) of the output. Entry (p, j) of a block's product is Σ_k block[p, k] · w[k, j]; since
  block[p, k] is features[2000·t + p, k], that is entry (2000·t + p, j) of the product of the whole arrays. The 50 row
  blocks tile the 100000 rows, so the output array ends holding `rowsTimes features weights`.
-/
import proofs.«125417_j54477365182993_1_alg».proof.Proof.Gen.KernelIdeal.Frame
import proofs.«125417_j54477365182993_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer1

open Cert.KernelIdeal Cert.KernelIdeal.Gen Cert.Gcn Idealize.ShloMosaic Idealize.ShloMosaic.TcCoe Idealize.SL.Sem
open Idealize.ShloMosaic.Pipeline (Dat)

/-! ## A block's product at an entry -/

theorem lhs_axis0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_axis1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_axis0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_axis1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (p, j) of what one grid point stores: Σ_k block[p, k] · w[k, j] (the accumulator is the zero splat, and a
    change of float format is the identity on extended reals). -/
theorem blockProduct_apply (x0 : Vec Ideal S2000x256 .bf16) (x1 : Vec Ideal S256x128 .bf16) (j : S2000x128.Idx) :
    k0_pay1 (F := Ideal) x0 x1 j = ∑ k : Fin 256, x0 (rowAt j k) * x1 (colAt j k) := by
  unfold k0_pay1
  simp only [shapeCast_self, matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = rowAt j k := funext fun a => Fin.ext (by
    match a with
    | ⟨0, _⟩ => exact lhs_axis0 _ _
    | ⟨1, _⟩ => exact (lhs_axis1 _ _).trans hk)
  have er : dot_S2000x256_S256x128_S2000x128_1_0_0_1_n_n.rhsIdx j ((ValueIdx.contrEquiv1 dot_S2000x256_S256x128_S2000x128_1_0_0_1_n_n 256 rfl rfl).symm k) = colAt j k := funext fun a => Fin.ext (by
    match a with
    | ⟨0, _⟩ => exact (rhs_axis0 _ _).trans hk
    | ⟨1, _⟩ => exact rhs_axis1 _ _)
  rw [el, er]

/-! ## From the 50 row blocks to the array -/

theorem hz : (![0, 0] : Fin 2 → Nat) = fun _ => 0 := funext fun a => by fin_cases a <;> rfl

/-- The printed index maps, decided over the grid: the feature window and the output window are at block row t, block
    column 0; the weight window stays at block (0, 0). -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The features and the weights as the region finds them. -/
abbrev feat (c : Dev nD) : S100000x256.Idx → EReal := V c main_v31
abbrev wts (c : Dev nD) : S256x128.Idx → EReal := V c main_v32

/-- WHAT POINT t WRITES BACK is block t of the whole product. -/
theorem flushed_eq (c : Dev nD) (t : Fin cfg0.N) :
    (dat0 V c).flushed 2 t = ((cfg0.win 2).blk t).view.read (Elt Ideal) (rowsTimes (feat V c) (wts V c)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨e0, e1, e2, e3, e4, e5⟩ := idx_facts t
  funext j
  refine (blockProduct_apply (iblk0 V c 0 t) (iblk0 V c 1 t) j).trans ?_
  show _ = ∑ k : Fin 256, feat V c (rowAt (((cfg0.win 2).blk t).view.emb j) k) * wts V c (colAt (((cfg0.win 2).blk t).view.emb j) k)
  refine Finset.sum_congr rfl fun k _ => ?_
  have hj0 : (j 0).val < 2000 := (j 0).isLt
  have hj1 : (j 1).val < 128 := (j 1).isLt
  have hl : iblk0 V c 0 t (rowAt j k) = feat V c (rowAt (((cfg0.win 2).blk t).view.emb j) k) := by
    show V c main_v31 (((cfg0.win 0).blk t).view.emb (rowAt j k)) = V c main_v31 (rowAt (((cfg0.win 2).blk t).view.emb j) k)
    refine congrArg (V c main_v31) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have hr : iblk0 V c 1 t (colAt j k) = wts V c (colAt (((cfg0.win 2).blk t).view.emb j) k) := by
    show V c main_v32 (((cfg0.win 1).blk t).view.emb (colAt j k)) = V c main_v32 (colAt (((cfg0.win 2).blk t).view.emb j) k)
    refine congrArg (V c main_v32) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [hl, hr]

/-- An index of the output array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- Every row is in SOME point's block: row r is in block r / 2000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 2000, by show (i 0).val / 2000 < 50; omega⟩, flush0_2 _, ?_⟩
  rw [mem_blk]
  obtain ⟨e0, e1, e2, e3, e4, e5⟩ := idx_facts ⟨(i 0).val / 2000, by show (i 0).val / 2000 < 50; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e5]; omega

/-- THE ARRAY after the region: the product of the features and the weights as the region found them. -/
theorem final (c : Dev nD) : (dat0 V c).arrAt 2 cfg0.N = rowsTimes (feat V c) (wts V c) :=
  (dat0 V c).arrAt_eq_of_cover 2 (rowsTimes (feat V c) (wts V c)) (fun t _ => flushed_eq V c t) cover

end Cert.KernelIdeal.Layer1

end
-- ==== Proof.Layer2.lean ====
/-
  Layer 2's transform, tile by tile, is ONE matrix product of the clamped activations.

  The second region runs over 50 grid points; point t loads rows [2000·t, 2000·t + 2000) of the aggregated layer-1
  activations (a [2000, 128] block), clamps every entry below at 0, multiplies by the whole [128, 16] weight matrix and
  stores the product into rows [2000·t, 2000·t + 2000) of the output. Entry (p, j) of a block's product is
  Σ_k max(block[p, k], 0) · w[k, j], and block[p, k] is activations[2000·t + p, k]: entry (2000·t + p, j) of
  `reluRowsTimes activations weights`. The 50 row blocks tile the 100000 rows.
-/
import proofs.«125417_j54477365182993_1_alg».proof.Proof.Gen.KernelIdeal.Frame
import proofs.«125417_j54477365182993_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer2

open Cert.KernelIdeal Cert.KernelIdeal.Gen Cert.Gcn Idealize.ShloMosaic Idealize.ShloMosaic.TcCoe Idealize.SL.Sem
open Idealize.ShloMosaic.Pipeline (Dat)

/-! ## A block's product at an entry -/

theorem lhs_axis0 (i : S2000x16.Idx) (q : dot_S2000x128_S128x16_S2000x16_1_0_0_1_n_n.contr.Idx) :
    (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem lhs_axis1 (i : S2000x16.Idx) (q : dot_S2000x128_S128x16_S2000x16_1_0_0_1_n_n.contr.Idx) :
    (dot_S2000x128_S128x16_S2000x16_1_0_0_1_n_n.lhsIdx i q 1).val = (q ⟨0, by decide⟩).val :=
  dot_S2000x128_S128x16_S2000x16_1_0_0_1_n_n.lhsIdx_val_of_single rfl i q
theorem rhs_axis0 (i : S2000x16.Idx) (q : dot_S2000x128_S128x16_S2000x16_1_0_0_1_n_n.contr.Idx) :
    (dot_S2000x128_S128x16_S2000x16_1_0_0_1_n_n.rhsIdx i q 0).val = (q ⟨0, by decide⟩).val :=
  dot_S2000x128_S128x16_S2000x16_1_0_0_1_n_n.rhsIdx_val_of_single rfl i q
theorem rhs_axis1 (i : S2000x16.Idx) (q : dot_S2000x128_S128x16_S2000x16_1_0_0_1_n_n.contr.Idx) :
    (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-- Entry (p, j) of what one grid point stores: Σ_k max(block[p, k], 0) · w[k, j] (the clamp's 0 is the zero word; the
    accumulator is the zero splat; a change of float format is the identity on extended reals). -/
theorem blockProduct_apply (x0 : Vec Ideal S2000x128 .f32) (x1 : Vec Ideal S128x16 .bf16) (j : S2000x16.Idx) :
    k1_pay1 (F := Ideal) x0 x1 j = ∑ k : Fin 128, max (x0 (rowAt j k)) 0 * x1 (colAt j k) := by
  unfold k1_pay1
  simp only [shapeCast_self, matmul]
  rw [Ideal.matmul_constant_zero_apply, ← Equiv.sum_comp (ValueIdx.contrEquiv1 dot_S2000x128_S128x16_S2000x16_1_0_0_1_n_n 128 rfl rfl).symm]
  refine Finset.sum_congr rfl fun k _ => ?_
  have hk := ValueIdx.contrEquiv1_symm_val dot_S2000x128_S128x16_S2000x16_1_0_0_1_n_n 128 rfl rfl k
  have el : dot_S2000x128_S128x16_S2000x16_1_0_0_1_n_n.lhsIdx j ((ValueIdx.contrEquiv1 dot_S2000x128_S128x16_S2000x16_1_0_0_1_n_n 128 rfl rfl).symm k) = rowAt j k := funext fun a => Fin.ext (by
    match a with
    | ⟨0, _⟩ => exact lhs_axis0 _ _
    | ⟨1, _⟩ => exact (lhs_axis1 _ _).trans hk)
  have er : dot_S2000x128_S128x16_S2000x16_1_0_0_1_n_n.rhsIdx j ((ValueIdx.contrEquiv1 dot_S2000x128_S128x16_S2000x16_1_0_0_1_n_n 128 rfl rfl).symm k) = colAt j k := funext fun a => Fin.ext (by
    match a with
    | ⟨0, _⟩ => exact (rhs_axis0 _ _).trans hk
    | ⟨1, _⟩ => exact rhs_axis1 _ _)
  rw [el, er]
  show max (x0 (rowAt j k)) (Ideal.ofBits .f32 0x00000000#32) * x1 (colAt j k) = _
  rw [Ideal.ofBits_zero_f32]

/-! ## From the 50 row blocks to the array -/

theorem hz : (![0, 0] : Fin 2 → Nat) = fun _ => 0 := funext fun a => by fin_cases a <;> rfl

/-- The printed index maps, decided over the grid: the activation window and the output window are at block row t,
    block column 0; the weight window stays at block (0, 0). -/
theorem idx_facts : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The aggregated activations and the weights as the region finds them. -/
abbrev acts (c : Dev nD) : S100000x128.Idx → EReal := V c main_v49
abbrev wts (c : Dev nD) : S128x16.Idx → EReal := V c main_v50

/-- WHAT POINT t WRITES BACK is block t of the whole clamped product. -/
theorem flushed_eq (c : Dev nD) (t : Fin cfg1.N) :
    (dat1 V c).flushed 2 t = ((cfg1.win 2).blk t).view.read (Elt Ideal) (reluRowsTimes (acts V c) (wts V c)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x16) hz]
  obtain ⟨e0, e1, e2, e3, e4, e5⟩ := idx_facts t
  funext j
  refine (blockProduct_apply (iblk1 V c 0 t) (iblk1 V c 1 t) j).trans ?_
  show _ = ∑ k : Fin 128, max (acts V c (rowAt (((cfg1.win 2).blk t).view.emb j) k)) 0 * wts V c (colAt (((cfg1.win 2).blk t).view.emb j) k)
  refine Finset.sum_congr rfl fun k _ => ?_
  have hj0 : (j 0).val < 2000 := (j 0).isLt
  have hj1 : (j 1).val < 16 := (j 1).isLt
  have hl : iblk1 V c 0 t (rowAt j k) = acts V c (rowAt (((cfg1.win 2).blk t).view.emb j) k) := by
    show V c main_v49 (((cfg1.win 0).blk t).view.emb (rowAt j k)) = V c main_v49 (rowAt (((cfg1.win 2).blk t).view.emb j) k)
    refine congrArg (V c main_v49) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  have hr : iblk1 V c 1 t (colAt j k) = wts V c (colAt (((cfg1.win 2).blk t).view.emb j) k) := by
    show V c main_v50 (((cfg1.win 1).blk t).view.emb (colAt j k)) = V c main_v50 (colAt (((cfg1.win 2).blk t).view.emb j) k)
    refine congrArg (V c main_v50) (funext fun a => Fin.ext ?_)
    match a with
    | ⟨0, _⟩ => show win1_1.index t (0 : Fin 2) * 128 + 1 * k.val = k.val; omega
    | ⟨1, _⟩ => show win1_1.index t (1 : Fin 2) * 16 + 1 * (j 1).val = win1_2.index t (1 : Fin 2) * 16 + 1 * (j 1).val; omega
  rw [hl, hr]

/-- An index of the output array is in point t's block iff each coordinate is in the block's range on its axis. -/
theorem mem_blk (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v51).slice (win1_2.rect t)).set ↔ _
  rw [View.set_slice_whole, Rect.mem_set_unit]
  exact Iff.rfl

/-- Every row is in SOME point's block: row r is in block r / 2000. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  refine ⟨⟨(i 0).val / 2000, by show (i 0).val / 2000 < 50; omega⟩, flush1_2 _, ?_⟩
  rw [mem_blk]
  obtain ⟨e0, e1, e2, e3, e4, e5⟩ := idx_facts ⟨(i 0).val / 2000, by show (i 0).val / 2000 < 50; omega⟩
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ (i 0).val ∧ (i 0).val < (i 0).val / 2000 * 2000 + 2000; omega
  | ⟨1, _⟩ => show win1_2.index _ (1 : Fin 2) * 16 ≤ (i 1).val ∧ (i 1).val < win1_2.index _ (1 : Fin 2) * 16 + 16; rw [e5]; omega

/-- THE ARRAY after the region: the clamped product of the activations and the weights as the region found them. -/
theorem final (c : Dev nD) : (dat1 V c).arrAt 2 cfg1.N = reluRowsTimes (acts V c) (wts V c) :=
  (dat1 V c).arrAt_eq_of_cover 2 (reluRowsTimes (acts V c) (wts V c)) (fun t _ => flushed_eq V c t) cover

end Cert.KernelIdeal.Layer2

end
-- ==== Proof.Normalize.lean ====
/-
  The last region, tile by tile, is ONE row-wise log-softmax.

  The third region runs over 50 grid points; point t loads rows [2000·t, 2000·t + 2000) of the logits (a [2000, 16]
  block) and stores, for each row, the entries shifted by the row's maximum M minus the logarithm of the sum of the
  exponentials of the shifted entries: (y[p, j] − M_p) − log Σ_k exp (y[p, k] − M_p). A row of a block is a row of the
  array, so the value at (2000·t + p, j) is `logSoftmaxRows logits` there. The 50 row blocks tile the 100000 rows.
-/
import proofs.«125417_j54477365182993_1_alg».proof.Proof.Gen.KernelIdeal.Frame
import proofs.«125417_j54477365182993_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Normalize

open Cert.KernelIdeal Cert.KernelIdeal.Gen Cert.Gcn Idealize.ShloMosaic Idealize.ShloMosaic.TcCoe Idealize.SL.Sem
open Idealize.ShloMosaic.Pipeline (Dat)

/-! ## A row's log-softmax depends on that row only -/

/-- If two matrices agree at an entry and along its row, their row-wise log-softmax agrees at that entry. -/
theorem logSoftmaxRows_congr {a a' d : Nat} (y : (Mat a d).Idx → EReal) (y' : (Mat a' d).Idx → EReal)
    (i : (Mat a d).Idx) (i' : (Mat a' d).Idx) (h0 : y i = y' i') (hrow : ∀ k : Fin d, y (rowAt i k) = y' (rowAt i' k)) :
    logSoftmaxRows y i = logSoftmaxRows y' i' := by
  have hM : rowMax y i = rowMax y' i' := by
    unfold rowMax
    exact congrArg (fun f => (Finset.univ : Finset (Fin d)).fold max (Ideal.ofBits .f32 0xFF800000#32) f) (funext hrow)
  unfold logSoftmaxRows
  rw [h0, hM]
  exact congrArg (fun s => y' i' - rowMax y' i' - Ideal.log s) (Finset.sum_congr rfl fun k _ => by rw [hrow k])

/-! ## One row statistic, kept as a column and spread over the 16 lanes -/

/-- The row of an index of a [2000, 16] block, as an index of a [2000] vector. -/
abbrev rowOf (j : S2000x16.Idx) : S2000.Idx := fun a => match a with | ⟨0, _⟩ => ⟨(j 0).val, (j 0).isLt⟩

/-- A [2000] vector cast to a [2000, 1] column and broadcast over 16 lanes reads, at (p, q), the vector at p. -/
theorem keepdim_apply {α : Type} (u : S2000.Idx → α) (j : S2000x16.Idx) :
    broadcastTo S2000x16 (shapeCast S2000x1 u shapeCasts_S2000_S2000x1) broadcasts_S2000x1_S2000x16 j = u (rowOf j) := by
  have hj0 : (j 0).val < 2000 := (j 0).isLt
  refine (broadcastTo_apply _ broadcasts_S2000x1_S2000x16 j
    (fun a => match a with | ⟨0, _⟩ => ⟨(j 0).val, (j 0).isLt⟩ | ⟨1, _⟩ => ⟨0, Nat.one_pos⟩) (fun a => by
      match a with
      | ⟨0, _⟩ => rfl
      | ⟨1, _⟩ => rfl)).trans ?_
  refine shapeCast_apply u shapeCasts_S2000_S2000x1 _ (rowOf j) ?_
  rw [Shape.rowMajor_val_one, Shape.rowMajor_val_two]
  show (j 0).val = (j 0).val * 1 + 0
  omega

/-- The same through a logarithm taken on the column. -/
theorem keepdim_log_apply (u : FVec Ideal S2000 .f32) (j : S2000x16.Idx) :
    broadcastTo S2000x16 (log (shapeCast S2000x1 u shapeCasts_S2000_S2000x1)) broadcasts_S2000x1_S2000x16 j = Ideal.log (u (rowOf j)) :=
  keepdim_apply (log u) j

/-- The maximum over the block row of `i`, folded from −∞, is the specification's row maximum. -/
theorem blockRowMax (x : FVec Ideal S2000x16 .f32) (hφ : FKind.Formats .f32) (hacc : (0xFF800000#32 : BitVec 32) = FKind.maximumf.neutral .f32 hφ) (i : S2000x16.Idx) :
    multiReduction .maximumf [1] S2000 x 0xFF800000#32 reduces_S2000x16_S2000 hφ hacc (rowOf i) = rowMax x i := by
  refine (Ideal.multiReduction_maximumf_single x 0xFF800000#32 reduces_S2000x16_S2000 hφ hacc (rowOf i)).trans ?_
  unfold rowMax
  refine congrArg (fun f => (Finset.univ : Finset (Fin 16)).fold max (Ideal.ofBits .f32 0xFF800000#32) f) (funext fun k => ?_)
  exact congrArg x (funext fun a => Fin.ext (by match a with | ⟨0, _⟩ => rfl | ⟨1, _⟩ => rfl))

/-- The sum over the block row of `i`. -/
theorem blockRowSum (x : FVec Ideal S2000x16 .f32) (hφ : FKind.Formats .f32) (hacc : (0x00000000#32 : BitVec 32) = FKind.add.neutral .f32 hφ) (i : S2000x16.Idx) :
    multiReduction .add [1] S2000 x 0x00000000#32 reduces_S2000x16_S2000 hφ hacc (rowOf i) = ∑ k : Fin 16, x (rowAt i k) := by
  refine (Ideal.multiReduction_add_single x 0x00000000#32 reduces_S2000x16_S2000 hφ hacc (rowOf i)).trans ?_
  refine Finset.sum_congr rfl fun k _ => ?_
  exact congrArg x (funext fun a => Fin.ext (by match a with | ⟨0, _⟩ => rfl | ⟨1, _⟩ => rfl))

/-- The row maximum is the same at every entry of a row. -/
theorem rowMax_rowAt (x : FVec Ideal S2000x16 .f32) (j : S2000x16.Idx) (k : Fin 16) : rowMax x (rowAt j k) = rowMax x j := by
  unfold rowMax
  refine congrArg (fun f => (Finset.univ : Finset (Fin 16)).fold max (Ideal.ofBits .f32 0xFF800000#32) f) (funext fun k' => ?_)
  exact congrArg x (funext fun a => Fin.ext (by match a with | ⟨0, _⟩ => rfl | ⟨1, _⟩ => rfl))

/-- Entry (p, j) of what one grid point stores is the row-wise log-softmax of the loaded block there. -/
theorem blockLogSoftmax_apply (x0 : Vec Ideal S2000x16 .f32) (j : S2000x16.Idx) :
    k2_pay1 (F := Ideal) x0 j = logSoftmaxRows x0 j := by
  have hx : shapeCast S2000x16 x0 shapeCasts_S2000x16_S2000x16 = x0 := shapeCast_self _ _
  unfold k2_pay1
  rw [hx]
  simp only [ValueIdx.subf_apply]
  rw [keepdim_apply, keepdim_log_apply]
  show _ = x0 j - rowMax x0 j - Ideal.log (∑ k : Fin 16, Ideal.exp (x0 (rowAt j k) - rowMax x0 j))
  refine congrArg₂ (fun a b => x0 j - a - Ideal.log b) (blockRowMax x0 _ _ j) ?_
  refine (blockRowSum _ _ _ j).trans ?_
  refine Finset.sum_congr rfl fun k _ => ?_
  refine congrArg (fun a => Ideal.exp (x0 (rowAt j k) - a)) ?_
  refine (keepdim_apply _ (rowAt j k)).trans ?_
  exact (blockRowMax x0 _ _ (rowAt j k)).trans (rowMax_rowAt x0 j k)

/-! ## From the 50 row blocks to the array -/

theorem hz : (![0, 0] : Fin 2 → Nat) = fun _ => 0 := funext fun a => by fin_cases a <;> rfl

/-- The printed index maps, decided over the grid: both windows are at block row t, block column 0. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

variable (V : (c : Dev nD) → (b : Ref sig .tc) → Buf (Elt Ideal) ((c : Thread nD τ).loc b))

/-- The logits as the region finds them. -/
abbrev logitsAt (c : Dev nD) : S100000x16.Idx → EReal := V c main_v67

/-- WHAT POINT t WRITES BACK is block t of the row-wise log-softmax of the whole logits. -/
theorem flushed_eq (c : Dev nD) (t : Fin cfg2.N) :
    (dat2 V c).flushed 1 t = ((cfg2.win 1).blk t).view.read (Elt Ideal) (logSoftmaxRows (logitsAt V c)) := by
  show (cfg2.win 1).cut (grid2.coords t) ((dat2 V c).after 1 t) = _
  rw [after2_1]
  unfold out2_1
  rw [View.canon_unit_zero hz]
  simp only [View.ld_unit_zero (S := S2000x16) hz]
  obtain ⟨e0, e1, e2, e3⟩ := idx_facts t
  funext j
  refine (blockLogSoftmax_apply (iblk2 V c 0 t) j).trans ?_
  show logSoftmaxRows (iblk2 V c 0 t) j = logSoftmaxRows (logitsAt V c) (((cfg2.win 1).blk t).view.emb j)
  have hj0 : (j 0).val < 2000 := (j 0).isLt
  have hj1 : (j 1).val < 16 := (j 1).isLt
  refine logSoftmaxRows_congr (iblk2 V c 0 t) (logitsAt V c) j (((cfg2.win 1).blk t).view.emb j) ?_ (fun k => ?_)
  · show V c main_v67 (((cfg2.win 0).blk t).view.emb j) = V c main_v67 (((cfg2.win 1).blk t).view.emb j)
    refine congrArg (V c main_v67) (funext fun a => Fin.ext ?_)
    match a with
    | ⟨0, _⟩ => show win2_0.index t (0 : Fin 2) * 2000 + 1 * (j 0).val = win2_1.index t (0 : Fin 2) * 2000 + 1 * (j 0).val; omega
    | ⟨1, _⟩ => show win2_0.index t (1 : Fin 2) * 16 + 1 * (j 1).val = win2_1.index t (1 : Fin 2) * 16 + 1 * (j 1).val; omega
  · show V c main_v67 (((cfg2.win 0).blk t).view.emb (rowAt j k)) = V c main_v67 (rowAt (((cfg2.win 1).blk t).view.emb j) k)
    refine congrArg (V c main_v67) (funext fun a => Fin.ext ?_)
    match a with
    | ⟨0, _⟩ => show win2_0.index t (0 : Fin 2) * 2000 + 1 * (j 0).val = win2_1.index t (0 : Fin 2) * 2000 + 1 * (j 0).val; omega
    | ⟨1, _⟩ => show win2_0.index t (1 : Fin 2) * 16 + 1 * k.val = k.val; omega

/-- An index of the output array is in point t's block iff each coordinate is in the block's range on its axis. -/
theorem mem_blk (t : Fin cfg2.N) (i : S100000x16.Idx) :
    i ∈ ((cfg2.win 1).blk t).view.set ↔ ∀ a : Fin 2, win2_1.index t a * S2000x16.size a ≤ (i a).val ∧ (i a).val < win2_1.index t a * S2000x16.size a + S2000x16.size a := by
  show i ∈ ((View.whole main_v68).slice (win2_1.rect t)).set ↔ _
  rw [View.set_slice_whole, Rect.mem_set_unit]
  exact Iff.rfl

/-- Every row is in SOME point's block: row r is in block r / 2000. -/
theorem cover (i : S100000x16.Idx) : ∃ t : Fin cfg2.N, (cfg2.win 1).flush t = true ∧ i ∈ ((cfg2.win 1).blk t).view.set := by
  have hi0 : (i 0).val < 100000 := (i 0).isLt
  have hi1 : (i 1).val < 16 := (i 1).isLt
  refine ⟨⟨(i 0).val / 2000, by show (i 0).val / 2000 < 50; omega⟩, flush2_1 _, ?_⟩
  rw [mem_blk]
  obtain ⟨e0, e1, e2, e3⟩ := idx_facts ⟨(i 0).val / 2000, by show (i 0).val / 2000 < 50; omega⟩
  intro a
  match a with
  | ⟨0, _⟩ => show win2_1.index _ (0 : Fin 2) * 2000 ≤ (i 0).val ∧ (i 0).val < win2_1.index _ (0 : Fin 2) * 2000 + 2000; rw [e2]; show (i 0).val / 2000 * 2000 ≤ (i 0).val ∧ (i 0).val < (i 0).val / 2000 * 2000 + 2000; omega
  | ⟨1, _⟩ => show win2_1.index _ (1 : Fin 2) * 16 ≤ (i 1).val ∧ (i 1).val < win2_1.index _ (1 : Fin 2) * 16 + 16; rw [e3]; omega

/-- THE ARRAY after the region: the row-wise log-softmax of the logits as the region found them. -/
theorem final (c : Dev nD) : (dat2 V c).arrAt 1 cfg2.N = logSoftmaxRows (logitsAt V c) :=
  (dat2 V c).arrAt_eq_of_cover 1 (logSoftmaxRows (logitsAt V c)) (fun t _ => flushed_eq V c t) cover

end Cert.KernelIdeal.Normalize

end
-- ==== Proof.KernelValue.lean ====
/-
  What the kernel's program returns, as one function of its arguments, on the extended reals.

  The boundaries' contents have been walked at any float family (Proof/KernelStretch.lean): the result buffer holds region
  2's final array, whose input is the second aggregation of region 1's final array, whose input is the first aggregation
  of region 0's final array — the edge sources, targets and normalisation being functions of the edge list alone. Here
  the three final arrays are named: a region's final array is ONE whole-array function of what it read (Proof/Layer1.lean,
  Proof/Layer2.lean, Proof/Normalize.lean), and on the extended reals narrowing an operand's float format changes nothing.
-/
import proofs.«125417_j54477365182993_1_alg».proof.Proof.KernelStretch
import proofs.«125417_j54477365182993_1_alg».proof.Proof.Layer1
import proofs.«125417_j54477365182993_1_alg».proof.Proof.Layer2
import proofs.«125417_j54477365182993_1_alg».proof.Proof.Normalize

set_option maxRecDepth 16384

noncomputable section

namespace Cert.KernelIdeal.Walk

open Cert.KernelIdeal Cert.KernelIdeal.Gen Cert.KernelIdeal.HostChains Cert.KernelIdeal.Stretch Cert.Gcn
open Idealize.ShloMosaic Idealize.ShloMosaic.TcCoe Idealize.SL.Sem

variable (m : (ℓ : Loc nD τ sig) → Buf (Elt Ideal) ℓ) (ρ : Dev nD → PrngReg) (c : Dev nD)

/-- On the extended reals a change of float format is the identity, array-wide. -/
theorem truncf_id {s : Shape} (x : FVec Ideal s .f32) (h : FTy.bits .bf16 < FTy.bits .f32) : truncf .bf16 x h = x := rfl

/-- The arguments as launched: features, edge list, first weights and bias, second weights and bias. -/
abbrev feat : (⟨S100000x256, .f32⟩ : BufTy).Contents (Elt Ideal) := m ((c : Thread nD τ).loc main_arg0)
abbrev edges : (⟨S2x1600000, .i32⟩ : BufTy).Contents (Elt Ideal) := m ((c : Thread nD τ).loc main_arg1)
abbrev w1 : (⟨S256x128, .f32⟩ : BufTy).Contents (Elt Ideal) := m ((c : Thread nD τ).loc main_arg2)
abbrev b1 : (⟨S128, .f32⟩ : BufTy).Contents (Elt Ideal) := m ((c : Thread nD τ).loc main_arg3)
abbrev w2 : (⟨S128x16, .f32⟩ : BufTy).Contents (Elt Ideal) := m ((c : Thread nD τ).loc main_arg4)
abbrev b2 : (⟨S16, .f32⟩ : BufTy).Contents (Elt Ideal) := m ((c : Thread nD τ).loc main_arg5)

/-- The launch contents of an argument buffer are the memory's. -/
theorem launch_arg0 : W0 m ρ c (Proc.devRef .tc main_arg0) = feat m c := rfl
theorem launch_arg1 : edgesAt m ρ c = edges m c := rfl
theorem launch_arg2 : W0 m ρ c (Proc.devRef .tc main_arg2) = w1 m c := rfl
theorem launch_arg3 : W0 m ρ c (Proc.devRef .tc main_arg3) = b1 m c := rfl
theorem launch_arg4 : W0 m ρ c (Proc.devRef .tc main_arg4) = w2 m c := rfl
theorem launch_arg5 : W0 m ρ c (Proc.devRef .tc main_arg5) = b2 m c := rfl

/-- Region 0 leaves the product of the features and the first weights. -/
theorem product1 : (dat0 (V3 m ρ) c).arrAt 2 cfg0.N = rowsTimes (a := 100000) (b := 256) (d := 128) (feat m c) (w1 m c) := by
  refine (Layer1.final (V3 m ρ) c).trans ?_
  show rowsTimes (a := 100000) (b := 256) (d := 128) (W3 m ρ c (Proc.devRef .tc main_v31)) (W3 m ρ c (Proc.devRef .tc main_v32)) = _
  rw [b3_feat, b3_w1, truncf_id, truncf_id, launch_arg0, launch_arg2]

/-- The layer-1 activations: the product aggregated over the edges, plus the bias. -/
abbrev hidden : (⟨S100000x128, .f32⟩ : BufTy).Contents (Elt Ideal) :=
  aggregate128 (rowsTimes (a := 100000) (b := 256) (d := 128) (feat m c) (w1 m c)) (edgeNorm (edges m c)) (sources (edges m c)) (targets (edges m c)) (b1 m c)

/-- Region 1 leaves the clamped product of the activations and the second weights. -/
theorem product2 : (dat1 (V5 m ρ) c).arrAt 2 cfg1.N = reluRowsTimes (a := 100000) (b := 128) (d := 16) (hidden m c) (w2 m c) := by
  refine (Layer2.final (V5 m ρ) c).trans ?_
  show reluRowsTimes (a := 100000) (b := 128) (d := 16) (W5 m ρ c (Proc.devRef .tc main_v49)) (W5 m ρ c (Proc.devRef .tc main_v50)) = _
  rw [b5_hidden, b5_w2, truncf_id, product1, launch_arg1, launch_arg3, launch_arg4]

/-- The logits: the clamped product aggregated over the edges, plus the second bias. -/
abbrev logits : (⟨S100000x16, .f32⟩ : BufTy).Contents (Elt Ideal) :=
  aggregate16 (reluRowsTimes (a := 100000) (b := 128) (d := 16) (hidden m c) (w2 m c)) (edgeNorm (edges m c)) (sources (edges m c)) (targets (edges m c)) (b2 m c)

/-- WHAT @main RETURNS: the row-wise log-softmax of the logits. -/
theorem result : W8 m ρ c (Proc.devRef .tc main_v68) = logSoftmaxRows (a := 100000) (d := 16) (logits m c) := by
  refine (b8_out m ρ c).trans ?_
  refine (Normalize.final (V7 m ρ) c).trans ?_
  show logSoftmaxRows (a := 100000) (d := 16) (W7 m ρ c (Proc.devRef .tc main_v67)) = _
  rw [b7_logits, product2, launch_arg1, launch_arg5]

end Cert.KernelIdeal.Walk

end
-- ==== Proof.RefWalk.lean ====
/-
  The reference's run, read stage by stage: what it returns is its last stage, the function of its arguments that
  Proof/RefRead.lean reads one operation at a time and Proof/RefValue.lean identifies.

  The 132 host operations are cut around the two places where a concatenation takes computed operands, and before the
  log-softmax. Each of the five
  chunks is read from an ARBITRARY valuation of the buffers, at an abstract float family: the two short ones (the edge
  rows, the self-loops and the concatenations) by rewriting, the two long ones (a normalisation, a product, an
  aggregation, the clamp; the log-softmax of whatever its input buffer holds, its operations first freed of the
  identity transports their typed references carry) in one pass. The five readings compose along the list; the arguments
  are written by no operation.
-/
import proofs.«125417_j54477365182993_1_alg».proof.Proof.RefRun
import proofs.«125417_j54477365182993_1_alg».proof.Proof.RefRead
import proofs.«125417_j54477365182993_1_alg».proof.Proof.HostChains
import Idealize.ShloMosaic.Lib.StableHlo.Run
import Idealize.ShloMosaic.Lib.Pipeline.Frame

set_option maxRecDepth 16384

noncomputable section

namespace Cert.ReferenceIdeal.RefWalk

open Cert.ReferenceIdeal Cert.ReferenceIdeal.Gen Cert.ReferenceIdeal.ValueP Cert.ReferenceIdeal.ReadP Cert.KernelIdeal.HostChains
open Idealize.ShloMosaic Idealize.ShloMosaic.TcCoe Idealize.SL.Sem Idealize.ShloMosaic.StableHlo

variable {F : FTy → Type} [FloatOps F]

/-! ## The log-softmax's operations without their typed references

A module-local function's operations carry, on every operand and on the result, a transport along "this buffer's type
is the value's type". Each transport is the identity; said once per operation, at a bound variable, it costs nothing,
and the fifteen operations become plain ones over the same buffers with the same functions. -/

section Plain

theorem plain_1 : (TRef.nullary (TRef.of (T := ⟨S_, .f32⟩) main_call3_cst) (constant S_ .f32 0xFF800000#32) : HloOp τ sig (Elt F))
    = nullary main_call3_cst ((constant S_ .f32 0xFF800000#32) : (⟨S_, .f32⟩ : BufTy).Contents (Elt F)) :=
  congrArg (fun w => StableHlo.nullary main_call3_cst w) (cast_eq _ _)
theorem plain_2 : (TRef.binary (TRef.of (T := ⟨S100000x16, .f32⟩) main_v92) (TRef.of (T := ⟨S_, .f32⟩) main_call3_cst) (TRef.of (T := ⟨S100000, .f32⟩) main_call3_v0) (fun x v => Host.reduce FloatOps.maximumf x v reducesTo_S100000x16_S100000_d1 h_S_) : HloOp τ sig (Elt F))
    = binary main_v92 main_call3_cst main_call3_v0 ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)) :=
  congrArg (fun g => StableHlo.binary main_v92 main_call3_cst main_call3_v0 g)
    (funext fun u => funext fun w => (cast_eq _ _).trans (congrArg₂ ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)) (cast_eq _ u) (cast_eq _ w)))
theorem plain_3 : (TRef.nullary (TRef.of (T := ⟨S_, .f32⟩) main_call3_cst_0) (constant S_ .f32 0xFF800000#32) : HloOp τ sig (Elt F))
    = nullary main_call3_cst_0 ((constant S_ .f32 0xFF800000#32) : (⟨S_, .f32⟩ : BufTy).Contents (Elt F)) :=
  congrArg (fun w => StableHlo.nullary main_call3_cst_0 w) (cast_eq _ _)
theorem plain_4 : (TRef.unary (TRef.of (T := ⟨S_, .f32⟩) main_call3_cst_0) (TRef.of (T := ⟨S100000, .f32⟩) main_call3_v1) (broadcastInDim S100000 ![] bcast_S_S100000) : HloOp τ sig (Elt F))
    = unary main_call3_cst_0 main_call3_v1 ((broadcastInDim S100000 ![] bcast_S_S100000) : (⟨S_, .f32⟩ : BufTy).Contents (Elt F) → (⟨S100000, .f32⟩ : BufTy).Contents (Elt F)) :=
  congrArg (fun g => StableHlo.unary main_call3_cst_0 main_call3_v1 g)
    (funext fun u => (cast_eq _ _).trans (congrArg ((broadcastInDim S100000 ![] bcast_S_S100000) : (⟨S_, .f32⟩ : BufTy).Contents (Elt F) → (⟨S100000, .f32⟩ : BufTy).Contents (Elt F)) (cast_eq _ u)))
theorem plain_5 : (TRef.binary (TRef.of (T := ⟨S100000, .f32⟩) main_call3_v1) (TRef.of (T := ⟨S100000, .f32⟩) main_call3_v0) (TRef.of (T := ⟨S100000, .f32⟩) main_call3_v2) maximumf : HloOp τ sig (Elt F))
    = binary main_call3_v1 main_call3_v0 main_call3_v2 (maximumf : (⟨S100000, .f32⟩ : BufTy).Contents (Elt F) → (⟨S100000, .f32⟩ : BufTy).Contents (Elt F) → (⟨S100000, .f32⟩ : BufTy).Contents (Elt F)) :=
  congrArg (fun g => StableHlo.binary main_call3_v1 main_call3_v0 main_call3_v2 g)
    (funext fun u => funext fun w => (cast_eq _ _).trans (congrArg₂ (maximumf : (⟨S100000, .f32⟩ : BufTy).Contents (Elt F) → (⟨S100000, .f32⟩ : BufTy).Contents (Elt F) → (⟨S100000, .f32⟩ : BufTy).Contents (Elt F)) (cast_eq _ u) (cast_eq _ w)))
theorem plain_6 : (TRef.unary (TRef.of (T := ⟨S100000, .f32⟩) main_call3_v2) (TRef.of (T := ⟨S100000x1, .f32⟩) main_call3_v3) (broadcastInDim S100000x1 ![0] bcast_S100000_S100000x1_0) : HloOp τ sig (Elt F))
    = unary main_call3_v2 main_call3_v3 ((broadcastInDim S100000x1 ![0] bcast_S100000_S100000x1_0) : (⟨S100000, .f32⟩ : BufTy).Contents (Elt F) → (⟨S100000x1, .f32⟩ : BufTy).Contents (Elt F)) :=
  congrArg (fun g => StableHlo.unary main_call3_v2 main_call3_v3 g)
    (funext fun u => (cast_eq _ _).trans (congrArg ((broadcastInDim S100000x1 ![0] bcast_S100000_S100000x1_0) : (⟨S100000, .f32⟩ : BufTy).Contents (Elt F) → (⟨S100000x1, .f32⟩ : BufTy).Contents (Elt F)) (cast_eq _ u)))
theorem plain_7 : (TRef.unary (TRef.of (T := ⟨S100000x1, .f32⟩) main_call3_v3) (TRef.of (T := ⟨S100000x16, .f32⟩) main_call3_v4) (broadcastInDim S100000x16 ![0, 1] bcast_S100000x1_S100000x16_0_1) : HloOp τ sig (Elt F))
    = unary main_call3_v3 main_call3_v4 ((broadcastInDim S100000x16 ![0, 1] bcast_S100000x1_S100000x16_0_1) : (⟨S100000x1, .f32⟩ : BufTy).Contents (Elt F) → (⟨S100000x16, .f32⟩ : BufTy).Contents (Elt F)) :=
  congrArg (fun g => StableHlo.unary main_call3_v3 main_call3_v4 g)
    (funext fun u => (cast_eq _ _).trans (congrArg ((broadcastInDim S100000x16 ![0, 1] bcast_S100000x1_S100000x16_0_1) : (⟨S100000x1, .f32⟩ : BufTy).Contents (Elt F) → (⟨S100000x16, .f32⟩ : BufTy).Contents (Elt F)) (cast_eq _ u)))
theorem plain_8 : (TRef.binary (TRef.of (T := ⟨S100000x16, .f32⟩) main_v92) (TRef.of (T := ⟨S100000x16, .f32⟩) main_call3_v4) (TRef.of (T := ⟨S100000x16, .f32⟩) main_call3_v5) subf : HloOp τ sig (Elt F))
    = binary main_v92 main_call3_v4 main_call3_v5 (subf : (⟨S100000x16, .f32⟩ : BufTy).Contents (Elt F) → (⟨S100000x16, .f32⟩ : BufTy).Contents (Elt F) → (⟨S100000x16, .f32⟩ : BufTy).Contents (Elt F)) :=
  congrArg (fun g => StableHlo.binary main_v92 main_call3_v4 main_call3_v5 g)
    (funext fun u => funext fun w => (cast_eq _ _).trans (congrArg₂ (subf : (⟨S100000x16, .f32⟩ : BufTy).Contents (Elt F) → (⟨S100000x16, .f32⟩ : BufTy).Contents (Elt F) → (⟨S100000x16, .f32⟩ : BufTy).Contents (Elt F)) (cast_eq _ u) (cast_eq _ w)))
theorem plain_9 : (TRef.unary (TRef.of (T := ⟨S100000x16, .f32⟩) main_call3_v5) (TRef.of (T := ⟨S100000x16, .f32⟩) main_call3_v6) Host.exp : HloOp τ sig (Elt F))
    = unary main_call3_v5 main_call3_v6 (Host.exp : (⟨S100000x16, .f32⟩ : BufTy).Contents (Elt F) → (⟨S100000x16, .f32⟩ : BufTy).Contents (Elt F)) :=
  congrArg (fun g => StableHlo.unary main_call3_v5 main_call3_v6 g)
    (funext fun u => (cast_eq _ _).trans (congrArg (Host.exp : (⟨S100000x16, .f32⟩ : BufTy).Contents (Elt F) → (⟨S100000x16, .f32⟩ : BufTy).Contents (Elt F)) (cast_eq _ u)))
theorem plain_10 : (TRef.nullary (TRef.of (T := ⟨S_, .f32⟩) main_call3_cst_1) (constant S_ .f32 0x00000000#32) : HloOp τ sig (Elt F))
    = nullary main_call3_cst_1 ((constant S_ .f32 0x00000000#32) : (⟨S_, .f32⟩ : BufTy).Contents (Elt F)) :=
  congrArg (fun w => StableHlo.nullary main_call3_cst_1 w) (cast_eq _ _)
theorem plain_11 : (TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_) : HloOp τ sig (Elt F))
    = binary main_call3_v6 main_call3_cst_1 main_call3_v7 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)) :=
  congrArg (fun g => StableHlo.binary main_call3_v6 main_call3_cst_1 main_call3_v7 g)
    (funext fun u => funext fun w => (cast_eq _ _).trans (congrArg₂ ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)) (cast_eq _ u) (cast_eq _ w)))
theorem plain_12 : (TRef.unary (TRef.of (T := ⟨S100000, .f32⟩) main_call3_v7) (TRef.of (T := ⟨S100000x1, .f32⟩) main_call3_v8) (broadcastInDim S100000x1 ![0] bcast_S100000_S100000x1_0) : HloOp τ sig (Elt F))
    = unary main_call3_v7 main_call3_v8 ((broadcastInDim S100000x1 ![0] bcast_S100000_S100000x1_0) : (⟨S100000, .f32⟩ : BufTy).Contents (Elt F) → (⟨S100000x1, .f32⟩ : BufTy).Contents (Elt F)) :=
  congrArg (fun g => StableHlo.unary main_call3_v7 main_call3_v8 g)
    (funext fun u => (cast_eq _ _).trans (congrArg ((broadcastInDim S100000x1 ![0] bcast_S100000_S100000x1_0) : (⟨S100000, .f32⟩ : BufTy).Contents (Elt F) → (⟨S100000x1, .f32⟩ : BufTy).Contents (Elt F)) (cast_eq _ u)))
theorem plain_13 : (TRef.unary (TRef.of (T := ⟨S100000x1, .f32⟩) main_call3_v8) (TRef.of (T := ⟨S100000x1, .f32⟩) main_call3_v9) Host.log : HloOp τ sig (Elt F))
    = unary main_call3_v8 main_call3_v9 (Host.log : (⟨S100000x1, .f32⟩ : BufTy).Contents (Elt F) → (⟨S100000x1, .f32⟩ : BufTy).Contents (Elt F)) :=
  congrArg (fun g => StableHlo.unary main_call3_v8 main_call3_v9 g)
    (funext fun u => (cast_eq _ _).trans (congrArg (Host.log : (⟨S100000x1, .f32⟩ : BufTy).Contents (Elt F) → (⟨S100000x1, .f32⟩ : BufTy).Contents (Elt F)) (cast_eq _ u)))
theorem plain_14 : (TRef.unary (TRef.of (T := ⟨S100000x1, .f32⟩) main_call3_v9) (TRef.of (T := ⟨S100000x16, .f32⟩) main_call3_v10) (broadcastInDim S100000x16 ![0, 1] bcast_S100000x1_S100000x16_0_1) : HloOp τ sig (Elt F))
    = unary main_call3_v9 main_call3_v10 ((broadcastInDim S100000x16 ![0, 1] bcast_S100000x1_S100000x16_0_1) : (⟨S100000x1, .f32⟩ : BufTy).Contents (Elt F) → (⟨S100000x16, .f32⟩ : BufTy).Contents (Elt F)) :=
  congrArg (fun g => StableHlo.unary main_call3_v9 main_call3_v10 g)
    (funext fun u => (cast_eq _ _).trans (congrArg ((broadcastInDim S100000x16 ![0, 1] bcast_S100000x1_S100000x16_0_1) : (⟨S100000x1, .f32⟩ : BufTy).Contents (Elt F) → (⟨S100000x16, .f32⟩ : BufTy).Contents (Elt F)) (cast_eq _ u)))
theorem plain_15 : (TRef.binary (TRef.of (T := ⟨S100000x16, .f32⟩) main_call3_v5) (TRef.of (T := ⟨S100000x16, .f32⟩) main_call3_v10) (TRef.of (T := ⟨S100000x16, .f32⟩) main_v93) subf : HloOp τ sig (Elt F))
    = binary main_call3_v5 main_call3_v10 main_v93 (subf : (⟨S100000x16, .f32⟩ : BufTy).Contents (Elt F) → (⟨S100000x16, .f32⟩ : BufTy).Contents (Elt F) → (⟨S100000x16, .f32⟩ : BufTy).Contents (Elt F)) :=
  congrArg (fun g => StableHlo.binary main_call3_v5 main_call3_v10 main_v93 g)
    (funext fun u => funext fun w => (cast_eq _ _).trans (congrArg₂ (subf : (⟨S100000x16, .f32⟩ : BufTy).Contents (Elt F) → (⟨S100000x16, .f32⟩ : BufTy).Contents (Elt F) → (⟨S100000x16, .f32⟩ : BufTy).Contents (Elt F)) (cast_eq _ u) (cast_eq _ w)))

/-- The fifteen operations, plain. -/
abbrev plain5 : List (HloOp τ sig (Elt F)) :=
  [ nullary main_call3_cst ((constant S_ .f32 0xFF800000#32) : (⟨S_, .f32⟩ : BufTy).Contents (Elt F)),
    binary main_v92 main_call3_cst main_call3_v0 ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)),
    nullary main_call3_cst_0 ((constant S_ .f32 0xFF800000#32) : (⟨S_, .f32⟩ : BufTy).Contents (Elt F)),
    unary main_call3_cst_0 main_call3_v1 ((broadcastInDim S100000 ![] bcast_S_S100000) : (⟨S_, .f32⟩ : BufTy).Contents (Elt F) → (⟨S100000, .f32⟩ : BufTy).Contents (Elt F)),
    binary main_call3_v1 main_call3_v0 main_call3_v2 (maximumf : (⟨S100000, .f32⟩ : BufTy).Contents (Elt F) → (⟨S100000, .f32⟩ : BufTy).Contents (Elt F) → (⟨S100000, .f32⟩ : BufTy).Contents (Elt F)),
    unary main_call3_v2 main_call3_v3 ((broadcastInDim S100000x1 ![0] bcast_S100000_S100000x1_0) : (⟨S100000, .f32⟩ : BufTy).Contents (Elt F) → (⟨S100000x1, .f32⟩ : BufTy).Contents (Elt F)),
    unary main_call3_v3 main_call3_v4 ((broadcastInDim S100000x16 ![0, 1] bcast_S100000x1_S100000x16_0_1) : (⟨S100000x1, .f32⟩ : BufTy).Contents (Elt F) → (⟨S100000x16, .f32⟩ : BufTy).Contents (Elt F)),
    binary main_v92 main_call3_v4 main_call3_v5 (subf : (⟨S100000x16, .f32⟩ : BufTy).Contents (Elt F) → (⟨S100000x16, .f32⟩ : BufTy).Contents (Elt F) → (⟨S100000x16, .f32⟩ : BufTy).Contents (Elt F)),
    unary main_call3_v5 main_call3_v6 (Host.exp : (⟨S100000x16, .f32⟩ : BufTy).Contents (Elt F) → (⟨S100000x16, .f32⟩ : BufTy).Contents (Elt F)),
    nullary main_call3_cst_1 ((constant S_ .f32 0x00000000#32) : (⟨S_, .f32⟩ : BufTy).Contents (Elt F)),
    binary main_call3_v6 main_call3_cst_1 main_call3_v7 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_call3_v7 main_call3_v8 ((broadcastInDim S100000x1 ![0] bcast_S100000_S100000x1_0) : (⟨S100000, .f32⟩ : BufTy).Contents (Elt F) → (⟨S100000x1, .f32⟩ : BufTy).Contents (Elt F)),
    unary main_call3_v8 main_call3_v9 (Host.log : (⟨S100000x1, .f32⟩ : BufTy).Contents (Elt F) → (⟨S100000x1, .f32⟩ : BufTy).Contents (Elt F)),
    unary main_call3_v9 main_call3_v10 ((broadcastInDim S100000x16 ![0, 1] bcast_S100000x1_S100000x16_0_1) : (⟨S100000x1, .f32⟩ : BufTy).Contents (Elt F) → (⟨S100000x16, .f32⟩ : BufTy).Contents (Elt F)),
    binary main_call3_v5 main_call3_v10 main_v93 (subf : (⟨S100000x16, .f32⟩ : BufTy).Contents (Elt F) → (⟨S100000x16, .f32⟩ : BufTy).Contents (Elt F) → (⟨S100000x16, .f32⟩ : BufTy).Contents (Elt F)) ]

/-- The log-softmax chunk is that list. -/
theorem ops_5_plain : (ops_5 : List (HloOp τ sig (Elt F))) = plain5 := by
  unfold ops_5
  rw [plain_1, plain_2, plain_3, plain_4, plain_5, plain_6, plain_7, plain_8, plain_9, plain_10, plain_11, plain_12, plain_13, plain_14, plain_15]

end Plain

/-! ## Each chunk from an arbitrary valuation -/

section Generic

variable (Wv : Valuation τ sig (Elt F))

/-- A row of the edge list as a vector, and a vector of edge ends with the self-loops appended. -/
def row0 (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
def row1 (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000
def withLoops (r : (⟨S1600000, .i32⟩ : BufTy).Contents (Elt F)) : (⟨S1700000, .i32⟩ : BufTy).Contents (Elt F) :=
  concatenate S1700000 0 [⟨S1600000, r⟩, ⟨S100000, iotaInDim S100000 32 0⟩] concatenates_S1600000_S100000_S1700000_d0

/-- Layer 1 from the edge ends on: normalise, multiply, aggregate, clamp. -/
def layer1 (x : (⟨S100000x256, .f32⟩ : BufTy).Contents (Elt F)) (w : (⟨S256x128, .f32⟩ : BufTy).Contents (Elt F))
    (s t : (⟨S1700000, .i32⟩ : BufTy).Contents (Elt F)) (b : (⟨S128, .f32⟩ : BufTy).Contents (Elt F)) : (⟨S100000x128, .f32⟩ : BufTy).Contents (Elt F) :=
  maximumf (aggregate128 (Host.dotGeneral dot_S100000x256_S256x128_S100000x128_1_0_0_1_n_n none x w) (edgeNormOf s t) s t b)
    (broadcastInDim S100000x128 ![] bcast_S_S100000x128 (constant S_ .f32 0x00000000#32))

/-- The reference's log-softmax as its operations spell it. -/
def logSoftmaxOps (y : (⟨S100000x16, .f32⟩ : BufTy).Contents (Elt F)) : (⟨S100000x16, .f32⟩ : BufTy).Contents (Elt F) :=
  let shifted : (⟨S100000x16, .f32⟩ : BufTy).Contents (Elt F) :=
    subf y (broadcastInDim S100000x16 ![0, 1] bcast_S100000x1_S100000x16_0_1 (broadcastInDim S100000x1 ![0] bcast_S100000_S100000x1_0
      (maximumf (broadcastInDim S100000 ![] bcast_S_S100000 (constant S_ .f32 0xFF800000#32))
        (Host.reduce FloatOps.maximumf y (constant S_ .f32 0xFF800000#32) reducesTo_S100000x16_S100000_d1 h_S_))))
  subf shifted (broadcastInDim S100000x16 ![0, 1] bcast_S100000x1_S100000x16_0_1 (Host.log (broadcastInDim S100000x1 ![0] bcast_S100000_S100000x1_0
    (Host.reduceAdd (Host.exp shifted) (constant S_ .f32 0x00000000#32) reducesTo_S100000x16_S100000_d1 h_S_))))

/-- Layer 2 from the edge ends on: normalise, multiply, aggregate, log-softmax. -/
def layer2 (h : (⟨S100000x128, .f32⟩ : BufTy).Contents (Elt F)) (w : (⟨S128x16, .f32⟩ : BufTy).Contents (Elt F))
    (s t : (⟨S1700000, .i32⟩ : BufTy).Contents (Elt F)) (b : (⟨S16, .f32⟩ : BufTy).Contents (Elt F)) : (⟨S100000x16, .f32⟩ : BufTy).Contents (Elt F) :=
  logSoftmaxOps (aggregate16 (Host.dotGeneral dot_S100000x128_S128x16_S100000x16_1_0_0_1_n_n none h w) (edgeNormOf s t) s t b)

/-! ### Chunk 1: the edge rows and the first concatenations -/

theorem c1_row0 : StableHlo.after ops_1 Wv (Proc.devRef .tc main_v1) = row0 (Wv (Proc.devRef .tc main_arg1)) := by
  after_results
  try rfl
theorem c1_row1 : StableHlo.after ops_1 Wv (Proc.devRef .tc main_v3) = row1 (Wv (Proc.devRef .tc main_arg1)) := by
  after_results
  try rfl
theorem c1_sources : StableHlo.after ops_1 Wv (Proc.devRef .tc main_v5) = withLoops (row0 (Wv (Proc.devRef .tc main_arg1))) := by
  after_results
  try rfl
theorem c1_targets : StableHlo.after ops_1 Wv (Proc.devRef .tc main_v6) = withLoops (row1 (Wv (Proc.devRef .tc main_arg1))) := by
  after_results
  try rfl
theorem c1_keeps_arg0 : StableHlo.after ops_1 Wv (Proc.devRef .tc main_arg0) = Wv (Proc.devRef .tc main_arg0) := by
  after_results
theorem c1_keeps_arg1 : StableHlo.after ops_1 Wv (Proc.devRef .tc main_arg1) = Wv (Proc.devRef .tc main_arg1) := by
  after_results
theorem c1_keeps_arg2 : StableHlo.after ops_1 Wv (Proc.devRef .tc main_arg2) = Wv (Proc.devRef .tc main_arg2) := by
  after_results
theorem c1_keeps_arg3 : StableHlo.after ops_1 Wv (Proc.devRef .tc main_arg3) = Wv (Proc.devRef .tc main_arg3) := by
  after_results
theorem c1_keeps_arg4 : StableHlo.after ops_1 Wv (Proc.devRef .tc main_arg4) = Wv (Proc.devRef .tc main_arg4) := by
  after_results
theorem c1_keeps_arg5 : StableHlo.after ops_1 Wv (Proc.devRef .tc main_arg5) = Wv (Proc.devRef .tc main_arg5) := by
  after_results

/-! ### Chunk 2: layer 1 -/

set_option maxHeartbeats 8000000 in
theorem c2_hidden : StableHlo.after ops_2 Wv (Proc.devRef .tc main_v48)
    = layer1 (Wv (Proc.devRef .tc main_arg0)) (Wv (Proc.devRef .tc main_arg2)) (Wv (Proc.devRef .tc main_v5)) (Wv (Proc.devRef .tc main_v6)) (Wv (Proc.devRef .tc main_arg3)) := by
  after_results_simp
  (try simp only [TRef.ofBuf, TRef.toBuf, cast_eq])
  try rfl
theorem c2_keeps_v1 : StableHlo.after ops_2 Wv (Proc.devRef .tc main_v1) = Wv (Proc.devRef .tc main_v1) := by
  after_results_simp
theorem c2_keeps_v3 : StableHlo.after ops_2 Wv (Proc.devRef .tc main_v3) = Wv (Proc.devRef .tc main_v3) := by
  after_results_simp
theorem c2_keeps_arg0 : StableHlo.after ops_2 Wv (Proc.devRef .tc main_arg0) = Wv (Proc.devRef .tc main_arg0) := by
  after_results_simp
theorem c2_keeps_arg1 : StableHlo.after ops_2 Wv (Proc.devRef .tc main_arg1) = Wv (Proc.devRef .tc main_arg1) := by
  after_results_simp
theorem c2_keeps_arg2 : StableHlo.after ops_2 Wv (Proc.devRef .tc main_arg2) = Wv (Proc.devRef .tc main_arg2) := by
  after_results_simp
theorem c2_keeps_arg3 : StableHlo.after ops_2 Wv (Proc.devRef .tc main_arg3) = Wv (Proc.devRef .tc main_arg3) := by
  after_results_simp
theorem c2_keeps_arg4 : StableHlo.after ops_2 Wv (Proc.devRef .tc main_arg4) = Wv (Proc.devRef .tc main_arg4) := by
  after_results_simp
theorem c2_keeps_arg5 : StableHlo.after ops_2 Wv (Proc.devRef .tc main_arg5) = Wv (Proc.devRef .tc main_arg5) := by
  after_results_simp

/-! ### Chunk 3: the concatenations again -/

theorem c3_sources : StableHlo.after ops_3 Wv (Proc.devRef .tc main_v50) = withLoops (Wv (Proc.devRef .tc main_v1)) := by
  after_results
  try rfl
theorem c3_targets : StableHlo.after ops_3 Wv (Proc.devRef .tc main_v51) = withLoops (Wv (Proc.devRef .tc main_v3)) := by
  after_results
  try rfl
theorem c3_keeps_v48 : StableHlo.after ops_3 Wv (Proc.devRef .tc main_v48) = Wv (Proc.devRef .tc main_v48) := by
  after_results
theorem c3_keeps_arg0 : StableHlo.after ops_3 Wv (Proc.devRef .tc main_arg0) = Wv (Proc.devRef .tc main_arg0) := by
  after_results
theorem c3_keeps_arg1 : StableHlo.after ops_3 Wv (Proc.devRef .tc main_arg1) = Wv (Proc.devRef .tc main_arg1) := by
  after_results
theorem c3_keeps_arg2 : StableHlo.after ops_3 Wv (Proc.devRef .tc main_arg2) = Wv (Proc.devRef .tc main_arg2) := by
  after_results
theorem c3_keeps_arg3 : StableHlo.after ops_3 Wv (Proc.devRef .tc main_arg3) = Wv (Proc.devRef .tc main_arg3) := by
  after_results
theorem c3_keeps_arg4 : StableHlo.after ops_3 Wv (Proc.devRef .tc main_arg4) = Wv (Proc.devRef .tc main_arg4) := by
  after_results
theorem c3_keeps_arg5 : StableHlo.after ops_3 Wv (Proc.devRef .tc main_arg5) = Wv (Proc.devRef .tc main_arg5) := by
  after_results

/-! ### Chunk 4: layer 2 up to the logits -/

set_option maxHeartbeats 8000000 in
theorem c4_logits : StableHlo.after ops_4 Wv (Proc.devRef .tc main_v92)
    = aggregate16 (Host.dotGeneral dot_S100000x128_S128x16_S100000x16_1_0_0_1_n_n none (Wv (Proc.devRef .tc main_v48)) (Wv (Proc.devRef .tc main_arg4)))
        (edgeNormOf (Wv (Proc.devRef .tc main_v50)) (Wv (Proc.devRef .tc main_v51))) (Wv (Proc.devRef .tc main_v50)) (Wv (Proc.devRef .tc main_v51)) (Wv (Proc.devRef .tc main_arg5)) := by
  after_results_simp
  (try simp only [TRef.ofBuf, TRef.toBuf, cast_eq])
  try rfl
theorem c4_keeps_arg0 : StableHlo.after ops_4 Wv (Proc.devRef .tc main_arg0) = Wv (Proc.devRef .tc main_arg0) := by
  after_results_simp
theorem c4_keeps_arg1 : StableHlo.after ops_4 Wv (Proc.devRef .tc main_arg1) = Wv (Proc.devRef .tc main_arg1) := by
  after_results_simp
theorem c4_keeps_arg2 : StableHlo.after ops_4 Wv (Proc.devRef .tc main_arg2) = Wv (Proc.devRef .tc main_arg2) := by
  after_results_simp
theorem c4_keeps_arg3 : StableHlo.after ops_4 Wv (Proc.devRef .tc main_arg3) = Wv (Proc.devRef .tc main_arg3) := by
  after_results_simp
theorem c4_keeps_arg4 : StableHlo.after ops_4 Wv (Proc.devRef .tc main_arg4) = Wv (Proc.devRef .tc main_arg4) := by
  after_results_simp
theorem c4_keeps_arg5 : StableHlo.after ops_4 Wv (Proc.devRef .tc main_arg5) = Wv (Proc.devRef .tc main_arg5) := by
  after_results_simp

/-! ### Chunk 5: the log-softmax of whatever the logits buffer holds -/

set_option maxHeartbeats 8000000 in
theorem c5_result : StableHlo.after ops_5 Wv (Proc.devRef .tc main_v93) = logSoftmaxOps (Wv (Proc.devRef .tc main_v92)) := by
  rw [ops_5_plain]
  after_results_simp
  try rfl
theorem c5_keeps_arg0 : StableHlo.after ops_5 Wv (Proc.devRef .tc main_arg0) = Wv (Proc.devRef .tc main_arg0) := by
  rw [ops_5_plain]
  after_results_simp
theorem c5_keeps_arg1 : StableHlo.after ops_5 Wv (Proc.devRef .tc main_arg1) = Wv (Proc.devRef .tc main_arg1) := by
  rw [ops_5_plain]
  after_results_simp
theorem c5_keeps_arg2 : StableHlo.after ops_5 Wv (Proc.devRef .tc main_arg2) = Wv (Proc.devRef .tc main_arg2) := by
  rw [ops_5_plain]
  after_results_simp
theorem c5_keeps_arg3 : StableHlo.after ops_5 Wv (Proc.devRef .tc main_arg3) = Wv (Proc.devRef .tc main_arg3) := by
  rw [ops_5_plain]
  after_results_simp
theorem c5_keeps_arg4 : StableHlo.after ops_5 Wv (Proc.devRef .tc main_arg4) = Wv (Proc.devRef .tc main_arg4) := by
  rw [ops_5_plain]
  after_results_simp
theorem c5_keeps_arg5 : StableHlo.after ops_5 Wv (Proc.devRef .tc main_arg5) = Wv (Proc.devRef .tc main_arg5) := by
  rw [ops_5_plain]
  after_results_simp

end Generic

/-! ## The five readings composed, and the run -/

section Walk

variable (V : Valuation τ sig (Elt F))

/-- The contents after the whole list are the contents after the five chunks in order. -/
theorem after_ops : StableHlo.after (ops (F := F)) V
    = StableHlo.after ops_5 (StableHlo.after ops_4 (StableHlo.after ops_3 (StableHlo.after ops_2 (StableHlo.after ops_1 V)))) := by
  rw [ops_split, StableHlo.after_append, StableHlo.after_append, StableHlo.after_append, StableHlo.after_append]

/-- The two layers over the named chains are the reference's last stage. -/
theorem layers_eq (x0 : (⟨S100000x256, .f32⟩ : BufTy).Contents (Elt F)) (x1 : (⟨S2x1600000, .i32⟩ : BufTy).Contents (Elt F))
    (x2 : (⟨S256x128, .f32⟩ : BufTy).Contents (Elt F)) (x3 : (⟨S128, .f32⟩ : BufTy).Contents (Elt F))
    (x4 : (⟨S128x16, .f32⟩ : BufTy).Contents (Elt F)) (x5 : (⟨S16, .f32⟩ : BufTy).Contents (Elt F)) :
    layer2 (layer1 x0 x2 (withLoops (row0 x1)) (withLoops (row1 x1)) x3) x4 (withLoops (row0 x1)) (withLoops (row1 x1)) x5
      = val_main_v93 (F := F) x0 x1 x2 x3 x4 x5 := rfl

/-- WHAT THE LIST LEAVES in the result buffer: the last stage of the reference at the launch contents of the arguments. -/
theorem result : StableHlo.after (ops (F := F)) V (Proc.devRef .tc main_v93) = val_main_v93 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops]
  refine (c5_result _).trans ?_
  rw [c4_logits, c3_keeps_v48, c3_keeps_arg4, c3_keeps_arg5, c3_sources, c3_targets,
    c2_hidden, c2_keeps_v1, c2_keeps_v3, c2_keeps_arg4, c2_keeps_arg5,
    c1_sources, c1_targets, c1_row0, c1_row1, c1_keeps_arg0, c1_keeps_arg2, c1_keeps_arg3, c1_keeps_arg4, c1_keeps_arg5]
  exact layers_eq _ _ _ _ _ _

/-- No operation writes argument 0. -/
theorem kept_arg0 : StableHlo.after (ops (F := F)) V (Proc.devRef .tc main_arg0) = V (Proc.devRef .tc main_arg0) := by
  rw [after_ops, c5_keeps_arg0, c4_keeps_arg0, c3_keeps_arg0, c2_keeps_arg0, c1_keeps_arg0]
/-- No operation writes argument 1. -/
theorem kept_arg1 : StableHlo.after (ops (F := F)) V (Proc.devRef .tc main_arg1) = V (Proc.devRef .tc main_arg1) := by
  rw [after_ops, c5_keeps_arg1, c4_keeps_arg1, c3_keeps_arg1, c2_keeps_arg1, c1_keeps_arg1]
/-- No operation writes argument 2. -/
theorem kept_arg2 : StableHlo.after (ops (F := F)) V (Proc.devRef .tc main_arg2) = V (Proc.devRef .tc main_arg2) := by
  rw [after_ops, c5_keeps_arg2, c4_keeps_arg2, c3_keeps_arg2, c2_keeps_arg2, c1_keeps_arg2]
/-- No operation writes argument 3. -/
theorem kept_arg3 : StableHlo.after (ops (F := F)) V (Proc.devRef .tc main_arg3) = V (Proc.devRef .tc main_arg3) := by
  rw [after_ops, c5_keeps_arg3, c4_keeps_arg3, c3_keeps_arg3, c2_keeps_arg3, c1_keeps_arg3]
/-- No operation writes argument 4. -/
theorem kept_arg4 : StableHlo.after (ops (F := F)) V (Proc.devRef .tc main_arg4) = V (Proc.devRef .tc main_arg4) := by
  rw [after_ops, c5_keeps_arg4, c4_keeps_arg4, c3_keeps_arg4, c2_keeps_arg4, c1_keeps_arg4]
/-- No operation writes argument 5. -/
theorem kept_arg5 : StableHlo.after (ops (F := F)) V (Proc.devRef .tc main_arg5) = V (Proc.devRef .tc main_arg5) := by
  rw [after_ops, c5_keeps_arg5, c4_keeps_arg5, c3_keeps_arg5, c2_keeps_arg5, c1_keeps_arg5]

end Walk

/-- THE RUN: on every device, from any memory with zero counters, every weakly fair execution of @main terminates with the
    result buffer at the reference's last stage of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93) = val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v93).trans (result (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c))⟩)
    (run_seq scopedRefs_eq scopedSems_eq defs main (fun _ => ops) main_eq (fun _ => ops_sub) m ρ)

end Cert.ReferenceIdeal.RefWalk

end
-- ==== Proof.RefValue.lean ====
/-
  What the reference computes, as the same function of its arguments as the kernel's program.

  The reference is all host operations. Its edge sources, targets and normalisation — computed once per layer, from the
  edge list alone — are the named chains; so are its two aggregations. Its two `dot_general`s are the matrix products
  (the second of the activations clamped below at 0), and its log-softmax is the shifted form: the one extra step it has,
  a maximum of −∞ with the row maximum already folded from −∞, changes nothing.
-/
import proofs.«125417_j54477365182993_1_alg».proof.Proof.RefRead
import proofs.«125417_j54477365182993_1_alg».proof.Proof.HostChains
import proofs.«125417_j54477365182993_1_alg».proof.Proof.Spec
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ReadP Cert.KernelIdeal.HostChains Cert.Gcn Idealize.ShloMosaic

/-! ## The host chains, at any float family -/

section Chains

variable {F : FTy → Type} [FloatOps F]
variable (x0 : (⟨S100000x256, .f32⟩ : BufTy).Contents (Elt F)) (x1 : (⟨S2x1600000, .i32⟩ : BufTy).Contents (Elt F))
  (x2 : (⟨S256x128, .f32⟩ : BufTy).Contents (Elt F)) (x3 : (⟨S128, .f32⟩ : BufTy).Contents (Elt F))
  (x4 : (⟨S128x16, .f32⟩ : BufTy).Contents (Elt F)) (x5 : (⟨S16, .f32⟩ : BufTy).Contents (Elt F))

theorem sources_eq : val_main_v5 (F := F) x1 = sources x1 := rfl
theorem targets_eq : val_main_v6 (F := F) x1 = targets x1 := rfl
theorem sources_again : val_main_v50 (F := F) x1 = sources x1 := rfl
theorem targets_again : val_main_v51 (F := F) x1 = targets x1 := rfl
theorem norm_eq : val_main_v30 (F := F) x1 = edgeNorm x1 := rfl
theorem norm_again : val_main_v75 (F := F) x1 = edgeNorm x1 := rfl

/-- Layer 1's activations: the first product aggregated over the edges, plus the first bias. -/
theorem hidden_eq : val_main_v47 (F := F) x0 x1 x2 x3
    = aggregate128 (val_main_v31 (F := F) x0 x2) (edgeNorm x1) (sources x1) (targets x1) x3 := rfl

/-- The logits: the second product aggregated over the edges, plus the second bias. -/
theorem logits_eq : val_main_v92 (F := F) x0 x1 x2 x3 x4 x5
    = aggregate16 (val_main_v76 (F := F) x0 x1 x2 x3 x4) (edgeNorm x1) (sources x1) (targets x1) x5 := rfl

end Chains

/-! ## The dense stages, on the extended reals -/

section Dense

variable (x0 : (⟨S100000x256, .f32⟩ : BufTy).Contents (Elt Ideal)) (x1 : (⟨S2x1600000, .i32⟩ : BufTy).Contents (Elt Ideal))
  (x2 : (⟨S256x128, .f32⟩ : BufTy).Contents (Elt Ideal)) (x3 : (⟨S128, .f32⟩ : BufTy).Contents (Elt Ideal))
  (x4 : (⟨S128x16, .f32⟩ : BufTy).Contents (Elt Ideal)) (x5 : (⟨S16, .f32⟩ : BufTy).Contents (Elt Ideal))

/-- Two spellings of "row of i, column k" (and of "row k, column of i") are one index. -/
theorem lidx1_eq (i : S100000x128.Idx) (k : Fin 256) : lidx_main_v31 i k = rowAt i k :=
  funext fun a => Fin.ext (by match a with | ⟨0, _⟩ => rfl | ⟨1, _⟩ => rfl)
theorem ridx1_eq (i : S100000x128.Idx) (k : Fin 256) : ridx_main_v31 i k = colAt i k :=
  funext fun a => Fin.ext (by match a with | ⟨0, _⟩ => rfl | ⟨1, _⟩ => rfl)
theorem lidx2_eq (i : S100000x16.Idx) (k : Fin 128) : lidx_main_v76 i k = rowAt i k :=
  funext fun a => Fin.ext (by match a with | ⟨0, _⟩ => rfl | ⟨1, _⟩ => rfl)
theorem ridx2_eq (i : S100000x16.Idx) (k : Fin 128) : ridx_main_v76 i k = colAt i k :=
  funext fun a => Fin.ext (by match a with | ⟨0, _⟩ => rfl | ⟨1, _⟩ => rfl)

/-- The first `dot_general` is the matrix product. -/
theorem product1_eq : val_main_v31 (F := Ideal) x0 x2 = rowsTimes (a := 100000) (b := 256) (d := 128) x0 x2 := by
  funext i
  refine (val_main_v31_apply x0 x2 i).trans ?_
  unfold rowsTimes
  refine Finset.sum_congr rfl fun k _ => ?_
  rw [lidx1_eq, ridx1_eq]

/-- The clamp of `relu` at an entry: a maximum with the zero word, which is 0. -/
theorem relu_apply (j : S100000x128.Idx) :
    val_main_v48 (F := Ideal) x0 x1 x2 x3 j = max (val_main_v47 (F := Ideal) x0 x1 x2 x3 j) 0 := by
  refine (val_main_v48_apply x0 x1 x2 x3 j).trans ?_
  refine congrArg (fun z => max (val_main_v47 (F := Ideal) x0 x1 x2 x3 j) z) ?_
  refine (val_main_call1_v0_apply j).trans ?_
  exact Ideal.ofBits_zero_f32

/-- The second `dot_general`, of the activations after `relu`, is the clamped matrix product. -/
theorem product2_eq : val_main_v76 (F := Ideal) x0 x1 x2 x3 x4
    = reluRowsTimes (a := 100000) (b := 128) (d := 16) (val_main_v47 (F := Ideal) x0 x1 x2 x3) x4 := by
  funext i
  refine (val_main_v76_apply x0 x1 x2 x3 x4 i).trans ?_
  unfold reluRowsTimes rowsTimes
  refine Finset.sum_congr rfl fun k _ => ?_
  rw [lidx2_eq, ridx2_eq, relu_apply]

/-! ### The log-softmax, every step a rewriting by a stated equation (no term is ever evaluated) -/

/-- The row maximum of a VARIABLE array as the reference takes it: a reduce from −∞, then once more a maximum with −∞. -/
theorem hostRowMax (y : (⟨S100000x16, .f32⟩ : BufTy).Contents (Elt Ideal)) (j : S100000.Idx) (i : S100000x16.Idx)
    (hj : (j 0).val = (i 0).val) :
    FloatOps.maximumf (F := Ideal) (φ := .f32) (FloatOps.ofBits .f32 0xFF800000#32)
        (Host.reduce (FloatOps.maximumf (F := Ideal) (φ := .f32)) y (val_main_call3_cst (F := Ideal)) reducesTo_S100000x16_S100000_d1 h_S_ j)
      = rowMax (a := 100000) (d := 16) y i := by
  have hred : S100000x16.Reduces [1] S100000 := by decide
  have h := Host.reduce_eq_fold_single (s := S100000x16) (t := S100000) (a := 1) (α := EReal) (u := S_)
    (FloatOps.maximumf (F := Ideal) (φ := .f32)) y (val_main_call3_cst (F := Ideal)) reducesTo_S100000x16_S100000_d1 hred h_S_ j
  generalize Host.reduce (FloatOps.maximumf (F := Ideal) (φ := .f32)) y (val_main_call3_cst (F := Ideal)) reducesTo_S100000x16_S100000_d1 h_S_ j = R at h ⊢
  subst h
  refine (Ideal.maximumf_def _ _).trans ?_
  refine (max_fold_max_self _ _ _).trans ?_
  unfold rowMax
  refine congrArg (fun f => (Finset.univ : Finset (Fin 16)).fold max (Ideal.ofBits .f32 0xFF800000#32) f) (funext fun k => ?_)
  exact congrArg y (funext fun a => Fin.ext (by
    match a with
    | ⟨0, _⟩ => exact hj
    | ⟨1, _⟩ => rfl))

/-- The row maximum is the same at every entry of a row. -/
theorem rowMax_rowAt (y : (Mat 100000 16).Idx → EReal) (i : (Mat 100000 16).Idx) (k : Fin 16) : rowMax y (rowAt i k) = rowMax y i := by
  unfold rowMax
  refine congrArg (fun f => (Finset.univ : Finset (Fin 16)).fold max (Ideal.ofBits .f32 0xFF800000#32) f) (funext fun k' => ?_)
  exact congrArg y (funext fun a => Fin.ext (by match a with | ⟨0, _⟩ => rfl | ⟨1, _⟩ => rfl))

/-- The specification's log-softmax at an entry, spelt out. -/
theorem logSoftmaxRows_apply (y : (Mat 100000 16).Idx → EReal) (i : (Mat 100000 16).Idx) :
    logSoftmaxRows y i = y i - rowMax y i - Ideal.log (∑ k : Fin 16, Ideal.exp (y (rowAt i k) - rowMax y i)) := rfl

/-- The zero the reference's row sum starts from. -/
theorem sumInit_eq : val_main_call3_cst_1 (F := Ideal) (Shape.Idx.first h_S_) = 0 :=
  (val_main_call3_cst_1_apply (F := Ideal) _).trans ((Ideal.ofBits_def _).trans Ideal.ofBits_zero_f32)

section Sealed

-- the logits are never opened below: every step is a stated equation about the stages above them
attribute [local irreducible] val_main_v92

/-- The broadcast row maximum at an entry. -/
theorem rowMax_eq (i : S100000x16.Idx) :
    val_main_call3_v4 (F := Ideal) x0 x1 x2 x3 x4 x5 i = rowMax (a := 100000) (d := 16) (val_main_v92 (F := Ideal) x0 x1 x2 x3 x4 x5) i := by
  rw [val_main_call3_v4_apply, val_main_call3_v3_apply, val_main_call3_v2_apply, val_main_call3_v1_apply, val_main_call3_cst_0_apply]
  unfold val_main_call3_v0
  exact hostRowMax (val_main_v92 (F := Ideal) x0 x1 x2 x3 x4 x5) (idx_main_call3_v3 (idx_main_call3_v4 i)) i rfl

/-- The shifted entries: an entry minus its row's maximum. -/
theorem shifted_apply (i : S100000x16.Idx) :
    val_main_call3_v5 (F := Ideal) x0 x1 x2 x3 x4 x5 i = val_main_v92 (F := Ideal) x0 x1 x2 x3 x4 x5 i - rowMax (a := 100000) (d := 16) (val_main_v92 (F := Ideal) x0 x1 x2 x3 x4 x5) i :=
  (val_main_call3_v5_apply x0 x1 x2 x3 x4 x5 i).trans ((Ideal.subf_def _ _).trans (congrArg (fun z => val_main_v92 (F := Ideal) x0 x1 x2 x3 x4 x5 i - z) (rowMax_eq x0 x1 x2 x3 x4 x5 i)))

/-- The exponential of a shifted entry of the row of `i`. -/
theorem expShifted_apply (i : S100000x16.Idx) (k : Fin 16) :
    val_main_call3_v6 (F := Ideal) x0 x1 x2 x3 x4 x5 (rowAt i k) = Ideal.exp (val_main_v92 (F := Ideal) x0 x1 x2 x3 x4 x5 (rowAt i k) - rowMax (a := 100000) (d := 16) (val_main_v92 (F := Ideal) x0 x1 x2 x3 x4 x5) i) :=
  (val_main_call3_v6_apply x0 x1 x2 x3 x4 x5 (rowAt i k)).trans ((Ideal.hostUnary_exp_def _).trans (congrArg Ideal.exp
    ((shifted_apply x0 x1 x2 x3 x4 x5 (rowAt i k)).trans (congrArg (fun z => val_main_v92 (F := Ideal) x0 x1 x2 x3 x4 x5 (rowAt i k) - z) (rowMax_rowAt _ i k)))))

/-- The logarithm of the row's sum of exponentials, spread over the row. -/
theorem logSumExp_apply (i : S100000x16.Idx) :
    val_main_call3_v10 (F := Ideal) x0 x1 x2 x3 x4 x5 i
      = Ideal.log (∑ k : Fin 16, Ideal.exp (val_main_v92 (F := Ideal) x0 x1 x2 x3 x4 x5 (rowAt i k) - rowMax (a := 100000) (d := 16) (val_main_v92 (F := Ideal) x0 x1 x2 x3 x4 x5) i)) := by
  refine (val_main_call3_v10_apply x0 x1 x2 x3 x4 x5 i).trans ?_
  refine (val_main_call3_v9_apply x0 x1 x2 x3 x4 x5 (idx_main_call3_v10 i)).trans ?_
  refine (Ideal.hostUnary_log_def _).trans (congrArg Ideal.log ?_)
  refine (val_main_call3_v8_apply x0 x1 x2 x3 x4 x5 (idx_main_call3_v10 i)).trans ?_
  refine (val_main_call3_v7_apply x0 x1 x2 x3 x4 x5 (idx_main_call3_v8 (idx_main_call3_v10 i))).trans ?_
  refine (congrArg (fun z => z + ∑ k : Fin 16, val_main_call3_v6 (F := Ideal) x0 x1 x2 x3 x4 x5 (idx_main_call3_v7 (idx_main_call3_v8 (idx_main_call3_v10 i)) k)) sumInit_eq).trans ?_
  refine (zero_add _).trans ?_
  refine Finset.sum_congr rfl fun k _ => ?_
  have hidx : idx_main_call3_v7 (idx_main_call3_v8 (idx_main_call3_v10 i)) k = rowAt i k :=
    funext fun a => Fin.ext (by match a with | ⟨0, _⟩ => rfl | ⟨1, _⟩ => rfl)
  exact (congrArg (val_main_call3_v6 (F := Ideal) x0 x1 x2 x3 x4 x5) hidx).trans (expShifted_apply x0 x1 x2 x3 x4 x5 i k)

/-- The reference's `log_softmax` is the row-wise log-softmax of the logits. -/
theorem normalize_eq : val_main_v93 (F := Ideal) x0 x1 x2 x3 x4 x5
    = logSoftmaxRows (a := 100000) (d := 16) (val_main_v92 (F := Ideal) x0 x1 x2 x3 x4 x5) := by
  funext i
  refine (val_main_v93_apply x0 x1 x2 x3 x4 x5 i).trans ?_
  refine (Ideal.subf_def _ _).trans ?_
  refine (congrArg₂ (fun p q => p - q) (shifted_apply x0 x1 x2 x3 x4 x5 i) (logSumExp_apply x0 x1 x2 x3 x4 x5 i)).trans ?_
  exact (logSoftmaxRows_apply _ i).symm

end Sealed

/-- WHAT THE REFERENCE RETURNS: the row-wise log-softmax of the second aggregation of the clamped second product of the
    first aggregation of the first product. -/
theorem result_eq : val_main_v93 (F := Ideal) x0 x1 x2 x3 x4 x5
    = logSoftmaxRows (a := 100000) (d := 16)
        (aggregate16
          (reluRowsTimes (a := 100000) (b := 128) (d := 16)
            (aggregate128 (rowsTimes (a := 100000) (b := 256) (d := 128) x0 x2) (edgeNorm x1) (sources x1) (targets x1) x3) x4)
          (edgeNorm x1) (sources x1) (targets x1) x5) := by
  rw [normalize_eq, logits_eq, product2_eq, hidden_eq, product1_eq]

end Dense

end Cert.ReferenceIdeal.RefValue

end
-- ==== Proof.lean ====
/-
  A two-layer graph convolution, its dense stages tiled into three kernels, against the same network written with plain
  array operations: equal results on the extended reals.

  Both programs compute, from features x, an edge list e, weights W₁, W₂ and biases b₁, b₂,

      log_softmax_rows ( A ( relu ( A (x·W₁) + b₁ ) · W₂ ) + b₂ )

  where A gathers each edge's source row, scales it by the edge's symmetric normalisation and adds it into the edge's
  target row. The kernel's program runs x·W₁, relu(·)·W₂ and the log-softmax as kernels over 50 row blocks of 2000 rows
  and leaves A to the host; the reference is all host operations.

  * Each kernel region's output array is ONE whole-array function of its input arrays (Proof/Layer1.lean,
    Proof/Layer2.lean, Proof/Normalize.lean): a row block of a product, or of a row-wise log-softmax, only reads the same
    rows of the input, and the row blocks tile the array. Changing the float format of an operand is the identity here,
    and a product accumulated into a zero splat is the plain sum over the contracted axis.
  * The host stretches between the regions are the same operations in both programs; they are carried as named functions
    (Proof/HostChains.lean) of the values going in, never opened.
  * The kernel program's result, walked from the launch through every stretch and region (Proof/KernelValue.lean), and
    the reference's last stage (Proof/RefValue.lean) are the same composite of these functions. The reference's one extra
    step — a maximum of −∞ with a maximum already folded from −∞ — changes nothing. No law beyond that is needed, so the
    finiteness of the inputs is never used.

  The three frame claims are the generated frames of the two kernel programs and the reference's run with the result
  dropped; the idealization rewrote nothing, so its claim is trivial.
-/
import proofs.«125417_j54477365182993_1_alg».proof.Defs
import proofs.«125417_j54477365182993_1_alg».proof.Proof.Gen.Kernel
import proofs.«125417_j54477365182993_1_alg».proof.Proof.Gen.Kernel.Skeleton
import proofs.«125417_j54477365182993_1_alg».proof.Proof.Gen.Kernel.Launch
import proofs.«125417_j54477365182993_1_alg».proof.Proof.Gen.Kernel.Points
import proofs.«125417_j54477365182993_1_alg».proof.Proof.Gen.Kernel.Frame
import proofs.«125417_j54477365182993_1_alg».proof.Proof.Gen.KernelIdeal
import proofs.«125417_j54477365182993_1_alg».proof.Proof.Gen.KernelIdeal.Skeleton
import proofs.«125417_j54477365182993_1_alg».proof.Proof.Gen.KernelIdeal.Launch
import proofs.«125417_j54477365182993_1_alg».proof.Proof.Gen.KernelIdeal.Points
import proofs.«125417_j54477365182993_1_alg».proof.Proof.Gen.KernelIdeal.Frame
import proofs.«125417_j54477365182993_1_alg».proof.Proof.Gen.ReferenceIdeal
import proofs.«125417_j54477365182993_1_alg».proof.Proof.Gen.Pre_finite_inputs
import proofs.«125417_j54477365182993_1_alg».proof.Proof.KernelRun
import proofs.«125417_j54477365182993_1_alg».proof.Proof.KernelValue
import proofs.«125417_j54477365182993_1_alg».proof.Proof.RefWalk
import proofs.«125417_j54477365182993_1_alg».proof.Proof.RefValue
import Idealize.ShloMosaic.Adequacy
import Idealize.ShloMosaic.Init

noncomputable section

namespace Cert.Proof

open Idealize.ShloMosaic Idealize.SL.Sem

/-- The two idealized programs, run from memories agreeing on the arguments, both end with the result buffer at the
    row-wise log-softmax of the logits: the kernel's by its run and the walk through its stretches and regions, the
    reference's by its run read stage by stage. -/
theorem algebraic : Cert.algebraic_KernelIdeal_ReferenceIdeal := by
  intro m ρ m' ρ' _ hagree
  refine ⟨fun c => Cert.Gcn.logSoftmaxRows (a := 100000) (d := 16) (Cert.KernelIdeal.Walk.logits m c),
    (θ_run Cert.KernelIdeal.defs _ _).mono (fun _ h c => ⟨(h c).1.trans (Cert.KernelIdeal.Walk.result m ρ c), (h c).2⟩)
      (Cert.KernelIdeal.GenRun.run_main m ρ), ?_⟩
  refine (θ_run Cert.ReferenceIdeal.defs _ _).mono (fun _ h c => ⟨(h c).1.trans ?_, (h c).2⟩)
    (Cert.ReferenceIdeal.RefWalk.run (F := Ideal) m' ρ')
  rw [Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefWalk.run (F := Ideal) m ρ),
  trivial,
  algebraic⟩

end Cert.Proof

end
